-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x256 : Shape := ⟨3, ![8, 512, 256]⟩
abbrev S8x512x64 : Shape := ⟨3, ![8, 512, 64]⟩
abbrev S8x512x64x128 : Shape := ⟨4, ![8, 512, 64, 128]⟩
abbrev S8x512x128 : Shape := ⟨3, ![8, 512, 128]⟩
abbrev S256x256 : Shape := ⟨2, ![256, 256]⟩
abbrev S128x256 : Shape := ⟨2, ![128, 256]⟩
abbrev S256 : Shape := ⟨1, ![256]⟩
abbrev S_ : Shape := ⟨0, ![]⟩

class Facts : Prop where
  bcast_S_S8x512x256 : S_.BroadcastsInDim S8x512x256 (![] : Fin 0 → Fin S8x512x256.rank)
  reducesTo_S8x512x256_S_d0_1_2 : S8x512x256.ReducesTo [0, 1, 2] S_
  h_S_ : 0 < S_.numel
  bcast_S_S8x512x64 : S_.BroadcastsInDim S8x512x64 (![] : Fin 0 → Fin S8x512x64.rank)
  reducesTo_S8x512x64_S_d0_1_2 : S8x512x64.ReducesTo [0, 1, 2] S_
  bcast_S_S8x512x64x128 : S_.BroadcastsInDim S8x512x64x128 (![] : Fin 0 → Fin S8x512x64x128.rank)
  reducesTo_S8x512x64x128_S_d0_1_2_3 : S8x512x64x128.ReducesTo [0, 1, 2, 3] S_
  bcast_S_S8x512x128 : S_.BroadcastsInDim S8x512x128 (![] : Fin 0 → Fin S8x512x128.rank)
  reducesTo_S8x512x128_S_d0_1_2 : S8x512x128.ReducesTo [0, 1, 2] S_
  bcast_S_S256x256 : S_.BroadcastsInDim S256x256 (![] : Fin 0 → Fin S256x256.rank)
  reducesTo_S256x256_S_d0_1 : S256x256.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg5 : IVec S8x512x64 32) (main_arg15 : FVec F S128x256 .f32) (main_v63 : IVec S_ 1) (main_v67 : IVec S_ 1) : IVec S_ 1 :=
  let main_v68 : IVec S_ 1 := andi main_v63 main_v67
  let main_v69 : FVec F S128x256 .f32 := Host.absf main_arg15
  let main_cst_26 : FVec F S_ .f32 := constant S_ .f32 0x7F800000#32
  let main_v70 : FVec F S128x256 .f32 := broadcastInDim S128x256 ![] bcast_S_S128x256 main_cst_26
  let main_v71 : IVec S128x256 1 := cmpf .olt main_v69 main_v70
  let main_c_27 : IVec S_ 1 := constantI S_ 1 1#1
  let main_v72 : IVec S_ 1 := (fun x v => Host.reduce IntOp.andi x v reducesTo_S128x256_S_d0_1 h_S_) main_v71 main_c_27
  let main_v73 : IVec S_ 1 := andi main_v68 main_v72
  let main_c_28 : IVec S_ 32 := constantI S_ 32 0#32
  let main_v74 : IVec S8x512x64 32 := broadcastInDim S8x512x64 ![] bcast_S_S8x512x64 main_c_28
  let main_v75 : IVec S8x512x64 1 := cmpi .sge main_arg5 main_v74
  let main_c_29 : IVec S_ 1 := constantI S_ 1 1#1
  let main_v76 : IVec S_ 1 := (fun x v => Host.reduce IntOp.andi x v reducesTo_S8x512x64_S_d0_1_2 h_S_) main_v75 main_c_29
  let main_v77 : IVec S_ 1 := andi main_v73 main_v76
  let main_c_30 : IVec S_ 32 := constantI S_ 32 512#32
  let main_v78 : IVec S8x512x64 32 := broadcastInDim S8x512x64 ![] bcast_S_S8x512x64 main_c_30
  let main_v79 : IVec S8x512x64 1 := cmpi .slt main_arg5 main_v78
  let main_c_31 : IVec S_ 1 := constantI S_ 1 1#1
  let main_v80 : IVec S_ 1 := (fun x v => Host.reduce IntOp.andi x v reducesTo_S8x512x64_S_d0_1_2 h_S_) main_v79 main_c_31
  let main_v81 : IVec S_ 1 := andi main_v77 main_v80
  main_v81

def fn_part3 {F : FTy → Type} [FloatOps F] (main_arg5 : IVec S8x512x64 32) (main_arg12 : FVec F S256 .f32) (main_arg13 : FVec F S256x256 .f32) (main_arg14 : FVec F S256 .f32) (main_arg15 : FVec F S128x256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg13
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg5 main_arg15 main_v63 main_v67

def fn_part2 {F : FTy → Type} [FloatOps F] (main_arg5 : IVec S8x512x64 32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S128x256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg11
  let main_cst_18 : FVec F S_ .f32 := constant S_ .f32 0x7F800000#32
  let main_v50 : FVec F S256x256 .f32 := broadcastInDim S256x256 ![] bcast_S_S256x256 main_cst_18
  fn_part3 (F := F) main_arg5 main_arg12 main_arg13 main_arg14 main_arg15 main_v48 main_v49 main_v50

def fn_part1 {F : FTy → Type} [FloatOps F] (main_arg4 : FVec F S8x512x64 .f32) (main_arg5 : IVec S8x512x64 32) (main_arg6 : FVec F S256x256 .f32) (main_arg7 : FVec F S128x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S128x256 .f32) (main_v13 : IVec S_ 1) (main_v16 : IVec S8x512x128 1) : IVec S_ 1 :=
  let main_c_5 : IVec S_ 1 := constantI S_ 1 1#1
  let main_v17 : IVec S_ 1 := (fun x v => Host.reduce IntOp.andi x v reducesTo_S8x512x128_S_d0_1_2 h_S_) main_v16 main_c_5
  let main_v18 : IVec S_ 1 := andi main_v13 main_v17
  let main_v19 : FVec F S8x512x64 .f32 := Host.absf main_arg4
  let main_cst_6 : FVec F S_ .f32 := constant S_ .f32 0x7F800000#32
  let main_v20 : FVec F S8x512x64 .f32 := broadcastInDim S8x512x64 ![] bcast_S_S8x512x64 main_cst_6
  let main_v21 : IVec S8x512x64 1 := cmpf .olt main_v19 main_v20
  let main_c_7 : IVec S_ 1 := constantI S_ 1 1#1
  let main_v22 : IVec S_ 1 := (fun x v => Host.reduce IntOp.andi x v reducesTo_S8x512x64_S_d0_1_2 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg5 main_arg8 main_arg9 main_arg10 main_arg11 main_arg12 main_arg13 main_arg14 main_arg15 main_v33

def fn {F : FTy → Type} [FloatOps F] (main_arg0 : FVec F S8x512x256 .f32) (main_arg1 : FVec F S8x512x64 .f32) (main_arg2 : FVec F S8x512x64x128 .f32) (main_arg3 : FVec F S8x512x128 .f32) (main_arg4 : FVec F S8x512x64 .f32) (main_arg5 : IVec S8x512x64 32) (main_arg6 : FVec F S256x256 .f32) (main_arg7 : FVec F S128x256 .f32) (main_arg8 : FVec F S256 .f32) (main_arg9 : FVec F S256x256 .f32) (main_arg10 : FVec F S256 .f32) (main_arg11 : FVec F S256x256 .f32) (main_arg12 : FVec F S256 .f32) (main_arg13 : FVec F S256x256 .f32) (main_arg14 : FVec F S256 .f32) (main_arg15 : FVec F S128x256 .f32) : IVec S_ 1 :=
  let main_v0 : FVec F S8x512x256 .f32 := Host.absf main_arg0
  let main_cst : FVec F S_ .f32 := constant S_ .f32 0x7F800000#32
  let main_v1 : FVec F S8x512x256 .f32 := broadcastInDim S8x512x256 ![] bcast_S_S8x512x256 main_cst
  let main_v2 : IVec S8x512x256 1 := cmpf .olt main_v0 main_v1
  let main_c : IVec S_ 1 := constantI S_ 1 1#1
  let main_v3 : IVec S_ 1 := (fun x v => Host.reduce IntOp.andi x v reducesTo_S8x512x256_S_d0_1_2 h_S_) main_v2 main_c
  let main_v4 : FVec F S8x512x64 .f32 := Host.absf main_arg1
  let main_cst_0 : FVec F S_ .f32 := constant S_ .f32 0x7F800000#32
  let main_v5 : FVec F S8x512x64 .f32 := broadcastInDim S8x512x64 ![] bcast_S_S8x512x64 main_cst_0
  let main_v6 : IVec S8x512x64 1 := cmpf .olt main_v4 main_v5
  let main_c_1 : IVec S_ 1 := constantI S_ 1 1#1
  let main_v7 : IVec S_ 1 := (fun x v => Host.reduce IntOp.andi x v reducesTo_S8x512x64_S_d0_1_2 h_S_) main_v6 main_c_1
  let main_v8 : IVec S_ 1 := andi main_v3 main_v7
  let main_v9 : FVec F S8x512x64x128 .f32 := Host.absf main_arg2
  let main_cst_2 : FVec F S_ .f32 := constant S_ .f32 0x7F800000#32
  let main_v10 : FVec F S8x512x64x128 .f32 := broadcastInDim S8x512x64x128 ![] bcast_S_S8x512x64x128 main_cst_2
  let main_v11 : IVec S8x512x64x128 1 := cmpf .olt main_v9 main_v10
  let main_c_3 : IVec S_ 1 := constantI S_ 1 1#1
  let main_v12 : IVec S_ 1 := (fun x v => Host.reduce IntOp.andi x v reducesTo_S8x512x64x128_S_d0_1_2_3 h_S_) main_v11 main_c_3
  let main_v13 : IVec S_ 1 := andi main_v8 main_v12
  let main_v14 : FVec F S8x512x128 .f32 := Host.absf main_arg3
  let main_cst_4 : FVec F S_ .f32 := constant S_ .f32 0x7F800000#32
  let main_v15 : FVec F S8x512x128 .f32 := broadcastInDim S8x512x128 ![] bcast_S_S8x512x128 main_cst_4
  let main_v16 : IVec S8x512x128 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S8x512x256 : Shape := ⟨3, ![8, 512, 256]⟩
abbrev S8x512x64 : Shape := ⟨3, ![8, 512, 64]⟩
abbrev S8x512x64x128 : Shape := ⟨4, ![8, 512, 64, 128]⟩
abbrev S8x512x128 : Shape := ⟨3, ![8, 512, 128]⟩
abbrev S256x256 : Shape := ⟨2, ![256, 256]⟩
abbrev S128x256 : Shape := ⟨2, ![128, 256]⟩
abbrev S256 : Shape := ⟨1, ![256]⟩
abbrev S1x256 : Shape := ⟨2, ![1, 256]⟩
abbrev S1x64x64x128 : Shape := ⟨4, ![1, 64, 64, 128]⟩
abbrev S1x64x64 : Shape := ⟨3, ![1, 64, 64]⟩
abbrev S1x512x256 : Shape := ⟨3, ![1, 512, 256]⟩
abbrev S1x64x128 : Shape := ⟨3, ![1, 64, 128]⟩
abbrev S1x64x256 : Shape := ⟨3, ![1, 64, 256]⟩
abbrev S64x64x128 : Shape := ⟨3, ![64, 64, 128]⟩
abbrev S4096x128 : Shape := ⟨2, ![4096, 128]⟩
abbrev S4096x256 : Shape := ⟨2, ![4096, 256]⟩
abbrev S64x64x256 : Shape := ⟨3, ![64, 64, 256]⟩
abbrev S64x64 : Shape := ⟨2, ![64, 64]⟩
abbrev S64x64x1 : Shape := ⟨3, ![64, 64, 1]⟩
abbrev S512x256 : Shape := ⟨2, ![512, 256]⟩
abbrev S1x1x512 : Shape := ⟨3, ![1, 1, 512]⟩
abbrev S64x64x512 : Shape := ⟨3, ![64, 64, 512]⟩
abbrev S4096x512 : Shape := ⟨2, ![4096, 512]⟩
abbrev S64x256 : Shape := ⟨2, ![64, 256]⟩
abbrev S64x128 : Shape := ⟨2, ![64, 128]⟩

abbrev nBuf : Space → Nat
  | .hbm => 30
  | .vmem => 24
  | .smem => 0
  | _ => 0

abbrev bufTy : (tb : Table) → Fin (tcTables nBuf tb) → BufTy
  | .hbm, ⟨0, _⟩ => ⟨S8x512x256, .f32⟩
  | .hbm, ⟨1, _⟩ => ⟨S8x512x64, .f32⟩
  | .hbm, ⟨2, _⟩ => ⟨S8x512x64x128, .f32⟩
  | .hbm, ⟨3, _⟩ => ⟨S8x512x128, .f32⟩
  | .hbm, ⟨4, _⟩ => ⟨S8x512x64, .f32⟩
  | .hbm, ⟨5, _⟩ => ⟨S8x512x64, .i32⟩
  | .hbm, ⟨6, _⟩ => ⟨S256x256, .f32⟩
  | .hbm, ⟨7, _⟩ => ⟨S128x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S128x256, .f32⟩
  | .hbm, ⟨16, _⟩ => ⟨S8x512x256, .bf16⟩
  | .hbm, ⟨17, _⟩ => ⟨S8x512x64x128, .bf16⟩
  | .hbm, ⟨18, _⟩ => ⟨S8x512x128, .bf16⟩
  | .hbm, ⟨19, _⟩ => ⟨S256x256, .bf16⟩
  | .hbm, ⟨20, _⟩ => ⟨S128x256, .bf16⟩
  | .hbm, ⟨21, _⟩ => ⟨S256x256, .bf16⟩
  | .hbm, ⟨22, _⟩ => ⟨S256x256, .bf16⟩
  | .hbm, ⟨23, _⟩ => ⟨S256x256, .bf16⟩
  | .hbm, ⟨24, _⟩ => ⟨S128x256, .bf16⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S8x512x256, .f32⟩
  | .local _ .vmem, ⟨0, _⟩ => ⟨S1x64x64x128, .bf16⟩
  | .local _ .vmem, ⟨1, _⟩ => ⟨S1x64x64x128, .bf16⟩
  | .local _ .vmem, ⟨2, _⟩ => ⟨S1x64x64, .f32⟩
  | .local _ .vmem, ⟨3, _⟩ => ⟨S1x64x64, .f32⟩
  | .local _ .vmem, ⟨4, _⟩ => ⟨S1x64x64, .f32⟩
  | .local _ .vmem, ⟨5, _⟩ => ⟨S1x64x64, .f32⟩
  | .local _ .vmem, ⟨6, _⟩ => ⟨S1x64x64, .i32⟩
  | .local _ .vmem, ⟨7, _⟩ => ⟨S1x64x64, .i32⟩
  | .local _ .vmem, ⟨8, _⟩ => ⟨S1x512x256, .bf16⟩
  | .local _ .vmem, ⟨9, _⟩ => ⟨S1x512x256, .bf16⟩
  | .local _ .vmem, ⟨10, _⟩ => ⟨S1x64x128, .bf16⟩
  | .local _ .vmem, ⟨11, _⟩ => ⟨S1x64x128, .bf16⟩
  | .local _ .vmem, ⟨12, _⟩ => ⟨S256x256, .bf16⟩
  | .local _ .vmem, ⟨13, _⟩ => ⟨S128x256, .bf16⟩
  | .local _ .vmem, ⟨14, _⟩ => ⟨S1x256, .f32⟩
  | .local _ .vmem, ⟨15, _⟩ => ⟨S256x256, .bf16⟩
  | .local _ .vmem, ⟨16, _⟩ => ⟨S1x256, .f32⟩
  | .local _ .vmem, ⟨17, _⟩ => ⟨S256x256, .bf16⟩
  | .local _ .vmem, ⟨18, _⟩ => ⟨S1x256, .f32⟩
  | .local _ .vmem, ⟨19, _⟩ => ⟨S256x256, .bf16⟩
  | .local _ .vmem, ⟨20, _⟩ => ⟨S1x256, .f32⟩
  | .local _ .vmem, ⟨21, _⟩ => ⟨S128x256, .bf16⟩
  | .local _ .vmem, ⟨22, _⟩ => ⟨S1x64x256, .f32⟩
  | .local _ .vmem, ⟨23, _⟩ => ⟨S1x64x256, .f32⟩
  | _, _ => ⟨S8x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x64 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x64x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  bitsLt_bf16_f32 : FTy.bits .bf16 < FTy.bits .f32
  shapeCasts_S256_S1x256 : S256.ShapeCasts S1x256
  inb_S1x64x64x128_S1x64x64x128_0_0_0_0 : ∀ a, (![0, 0, 0, 0] : Fin 4 → Nat) a + S1x64x64x128.size a ≤ S1x64x64x128.size a
  h_S1x64x64x128 : 0 < S1x64x64x128.numel
  shapeCasts_S1x64x64x128_S64x64x128 : S1x64x64x128.ShapeCasts S64x64x128
  shapeCasts_S64x64x128_S4096x128 : S64x64x128.ShapeCasts S4096x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S4096x256_S64x64x256 : S4096x256.ShapeCasts S64x64x256
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  natLt_1_32 : 1 < 32
  shapeCasts_S64x64_S64x64x1 : S64x64.ShapeCasts S64x64x1
  broadcasts_S64x64x1_S64x64x256 : S64x64x1.Broadcasts S64x64x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  iota_S1x1x512_d2_w32 : S1x1x512.Iotas .tc 32 [2]
  broadcasts_S64x64x1_S64x64x512 : S64x64x1.Broadcasts S64x64x512
  broadcasts_S1x1x512_S64x64x512 : S1x1x512.Broadcasts S64x64x512
  shapeCasts_S64x64x512_S4096x512 : S64x64x512.ShapeCasts S4096x512
  reduces_S64x64x256_S64x256 : S64x64x256.Reduces [1] S64x256
  broadcasts_S1x256_S64x256 : S1x256.Broadcasts S64x256
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  dot_S512x256_S256x256_S512x256_1_0_0_1_n_n_wf : DotDims.WF S512x256 S256x256 S512x256 [1] [0] [0] [1] [] []
  dot_S4096x512_S512x256_S4096x256_1_0_0_1_n_n_wf : DotDims.WF S4096x512 S512x256 S4096x256 [1] [0] [0] [1] [] []
  dot_S64x256_S256x256_S64x256_1_0_0_1_n_n_wf : DotDims.WF S64x256 S256x256 S64x256 [1] [0] [0] [1] [] []
  dot_S64x128_S128x256_S64x256_1_0_0_1_n_n_wf : DotDims.WF S64x128 S128x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x128.size a ≤ S8x512x64x128.size a
  hwx0_0 : ∀ i : grid0.Coords, EltTy.bits .bf16 = 32 ∨ (Rect.block (s := S8x512x64x128) S1x64x64x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S8x512x64.size a
  hwx0_1 : ∀ i : grid0.Coords, EltTy.bits .f32 = 32 ∨ (Rect.block (s := S8x512x64) S1x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64.size a ≤ S8x512x64.size a
  hwx0_2 : ∀ i : grid0.Coords, EltTy.bits .f32 = 32 ∨ (Rect.block (s := S8x512x64) S1x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64.size a ≤ S8x512x64.size a
  hwx0_3 : ∀ i : grid0.Coords, EltTy.bits .i32 = 32 ∨ (Rect.block (s := S8x512x64) S1x64x64.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x256.size a ≤ S8x512x256.size a
  hwx0_4 : ∀ i : grid0.Coords, EltTy.bits .bf16 = 32 ∨ (Rect.block (s := S8x512x256) S1x512x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x128.size a ≤ S8x512x128.size a
  hwx0_5 : ∀ i : grid0.Coords, EltTy.bits .bf16 = 32 ∨ (Rect.block (s := S8x512x128) S1x64x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .bf16 = 32 ∨ (Rect.block (s := S256x256) S256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .bf16 = 32 ∨ (Rect.block (s := S128x256) S128x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .bf16 = 32 ∨ (Rect.block (s := S256x256) S256x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x256.size a ≤ S128x256.size a
  hwx0_15 : ∀ i : grid0.Coords, EltTy.bits .bf16 = 32 ∨ (Rect.block (s := S128x256) S128x256.size (cc0_transform_15 i) (hinb0_15 i)).WholeWords (EltTy.packing .bf16)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x64x256.size a ≤ S8x512x256.size a
  hwx0_16 : ∀ i : grid0.Coords, EltTy.bits .f32 = 32 ∨ (Rect.block (s := S8x512x256) S1x64x256.size (cc0_transform_16 i) (hinb0_16 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x128_S128x256_S64x256_1_0_0_1_n_n : DotDims S64x128 S128x256 S64x256 where
  lhsContracting := [1]
  rhsContracting := [0]
  lhsNonContracting := [0]
  rhsNonContracting := [1]
  lhsBatch := []
  rhsBatch := []
  wf := dot_S64x128_S128x256_S64x256_1_0_0_1_n_n_wf

abbrev win0_0 : Pipeline.Window sig grid0 :=
  Pipeline.Window.ofSpec (Memref.whole main_v1) S1x64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1x64x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x64x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v12) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v8) S128x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v13) S1x64x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S8x512x256 : Shape := ⟨3, ![8, 512, 256]⟩
abbrev S8x512x64 : Shape := ⟨3, ![8, 512, 64]⟩
abbrev S8x512x64x128 : Shape := ⟨4, ![8, 512, 64, 128]⟩
abbrev S8x512x128 : Shape := ⟨3, ![8, 512, 128]⟩
abbrev S256x256 : Shape := ⟨2, ![256, 256]⟩
abbrev S128x256 : Shape := ⟨2, ![128, 256]⟩
abbrev S256 : Shape := ⟨1, ![256]⟩
abbrev S8x512x64x256 : Shape := ⟨4, ![8, 512, 64, 256]⟩
abbrev S1x1x1x256 : Shape := ⟨4, ![1, 1, 1, 256]⟩
abbrev S_ : Shape := ⟨0, ![]⟩
abbrev S8x512x64x1 : Shape := ⟨4, ![8, 512, 64, 1]⟩
abbrev S8x32768x1 : Shape := ⟨3, ![8, 32768, 1]⟩
abbrev S1 : Shape := ⟨1, ![1]⟩
abbrev S1x1x1 : Shape := ⟨3, ![1, 1, 1]⟩
abbrev S8x32768 : Shape := ⟨2, ![8, 32768]⟩
abbrev S8x32768x256 : Shape := ⟨3, ![8, 32768, 256]⟩
abbrev S1x1x256 : Shape := ⟨3, ![1, 1, 256]⟩

abbrev nBuf : Space → Nat
  | .hbm => 106
  | .vmem => 0
  | .smem => 0
  | _ => 0

abbrev bufTy : (tb : Table) → Fin (tcTables nBuf tb) → BufTy
  | .hbm, ⟨0, _⟩ => ⟨S8x512x256, .f32⟩
  | .hbm, ⟨1, _⟩ => ⟨S8x512x64, .f32⟩
  | .hbm, ⟨2, _⟩ => ⟨S8x512x64x128, .f32⟩
  | .hbm, ⟨3, _⟩ => ⟨S8x512x128, .f32⟩
  | .hbm, ⟨4, _⟩ => ⟨S8x512x64, .f32⟩
  | .hbm, ⟨5, _⟩ => ⟨S8x512x64, .i32⟩
  | .hbm, ⟨6, _⟩ => ⟨S256x256, .f32⟩
  | .hbm, ⟨7, _⟩ => ⟨S128x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S128x256, .f32⟩
  | .hbm, ⟨16, _⟩ => ⟨S8x512x64x256, .f32⟩
  | .hbm, ⟨17, _⟩ => ⟨S1x1x1x256, .f32⟩
  | .hbm, ⟨18, _⟩ => ⟨S8x512x64x256, .f32⟩
  | .hbm, ⟨19, _⟩ => ⟨S8x512x64x256, .f32⟩
  | .hbm, ⟨20, _⟩ => ⟨S_, .f32⟩
  | .hbm, ⟨21, _⟩ => ⟨S8x512x64x256, .f32⟩
  | .hbm, ⟨22, _⟩ => ⟨S8x512x64x256, .f32⟩
  | .hbm, ⟨23, _⟩ => ⟨S8x512x64x256, .f32⟩
  | .hbm, ⟨24, _⟩ => ⟨S8x512x64x256, .f32⟩
  | .hbm, ⟨25, _⟩ => ⟨S8x512x64x256, .i1⟩
  | .hbm, ⟨26, _⟩ => ⟨S8x512x64x256, .f32⟩
  | .hbm, ⟨27, _⟩ => ⟨S8x512x64x256, .f32⟩
  | .hbm, ⟨28, _⟩ => ⟨S8x512x64x256, .f32⟩
  | .hbm, ⟨29, _⟩ => ⟨S8x512x64x256, .f32⟩
  | .hbm, ⟨30, _⟩ => ⟨S8x512x64x256, .f32⟩
  | .hbm, ⟨31, _⟩ => ⟨S8x512x64x256, .f32⟩
  | .hbm, ⟨32, _⟩ => ⟨S8x512x64x256, .f32⟩
  | .hbm, ⟨33, _⟩ => ⟨S8x512x64x256, .f32⟩
  | .hbm, ⟨34, _⟩ => ⟨S_, .f32⟩
  | .hbm, ⟨35, _⟩ => ⟨S8x512x64x256, .f32⟩
  | .hbm, ⟨36, _⟩ => ⟨S8x512x64x256, .f32⟩
  | .hbm, ⟨37, _⟩ => ⟨S8x512x64x256, .f32⟩
  | .hbm, ⟨38, _⟩ => ⟨S1x1x1x256, .f32⟩
  | .hbm, ⟨39, _⟩ => ⟨S8x512x64x256, .f32⟩
  | .hbm, ⟨40, _⟩ => ⟨S8x512x64x256, .f32⟩
  | .hbm, ⟨41, _⟩ => ⟨S_, .f32⟩
  | .hbm, ⟨42, _⟩ => ⟨S8x512x64, .f32⟩
  | .hbm, ⟨43, _⟩ => ⟨S8x512x64, .i1⟩
  | .hbm, ⟨44, _⟩ => ⟨S8x512x64, .f32⟩
  | .hbm, ⟨45, _⟩ => ⟨S8x512x64x1, .f32⟩
  | .hbm, ⟨46, _⟩ => ⟨S8x512x64x256, .f32⟩
  | .hbm, ⟨47, _⟩ => ⟨S8x512x64x256, .f32⟩
  | .hbm, ⟨48, _⟩ => ⟨S8x512x256, .f32⟩
  | .hbm, ⟨49, _⟩ => ⟨S8x32768x1, .i32⟩
  | .hbm, ⟨50, _⟩ => ⟨S_, .i32⟩
  | .hbm, ⟨51, _⟩ => ⟨S8x32768x1, .i32⟩
  | .hbm, ⟨52, _⟩ => ⟨S8x32768x1, .i1⟩
  | .hbm, ⟨53, _⟩ => ⟨S_, .i32⟩
  | .hbm, ⟨54, _⟩ => ⟨S8x32768x1, .i32⟩
  | .hbm, ⟨55, _⟩ => ⟨S8x32768x1, .i32⟩
  | .hbm, ⟨56, _⟩ => ⟨S8x32768x1, .i32⟩
  | .hbm, ⟨57, _⟩ => ⟨S1, .i32⟩
  | .hbm, ⟨58, _⟩ => ⟨S_, .i32⟩
  | .hbm, ⟨59, _⟩ => ⟨S8x32768x1, .i32⟩
  | .hbm, ⟨60, _⟩ => ⟨S8x32768x1, .i1⟩
  | .hbm, ⟨61, _⟩ => ⟨S1x1x1, .i32⟩
  | .hbm, ⟨62, _⟩ => ⟨S8x32768x1, .i32⟩
  | .hbm, ⟨63, _⟩ => ⟨S8x32768x1, .i1⟩
  | .hbm, ⟨64, _⟩ => ⟨S8x32768x1, .i1⟩
  | .hbm, ⟨65, _⟩ => ⟨S_, .i1⟩
  | .hbm, ⟨66, _⟩ => ⟨S8x32768, .i1⟩
  | .hbm, ⟨67, _⟩ => ⟨S8x32768x256, .f32⟩
  | .hbm, ⟨68, _⟩ => ⟨S8x32768x256, .i1⟩
  | .hbm, ⟨69, _⟩ => ⟨S_, .f32⟩
  | .hbm, ⟨70, _⟩ => ⟨S8x32768x256, .f32⟩
  | .hbm, ⟨71, _⟩ => ⟨S8x32768x256, .f32⟩
  | .hbm, ⟨72, _⟩ => ⟨S8x512x64x256, .f32⟩
  | .hbm, ⟨73, _⟩ => ⟨S8x512x64x256, .f32⟩
  | .hbm, ⟨74, _⟩ => ⟨S8x512x64x1, .f32⟩
  | .hbm, ⟨75, _⟩ => ⟨S8x512x64x256, .f32⟩
  | .hbm, ⟨76, _⟩ => ⟨S8x512x64x256, .f32⟩
  | .hbm, ⟨77, _⟩ => ⟨S_, .f32⟩
  | .hbm, ⟨78, _⟩ => ⟨S8x512x256, .f32⟩
  | .hbm, ⟨79, _⟩ => ⟨S8x512x256, .f32⟩
  | .hbm, ⟨80, _⟩ => ⟨S1x1x256, .f32⟩
  | .hbm, ⟨81, _⟩ => ⟨S8x512x256, .f32⟩
  | .hbm, ⟨82, _⟩ => ⟨S8x512x256, .f32⟩
  | .hbm, ⟨83, _⟩ => ⟨S8x512x256, .f32⟩
  | .hbm, ⟨84, _⟩ => ⟨S1x1x256, .f32⟩
  | .hbm, ⟨85, _⟩ => ⟨S8x512x256, .f32⟩
  | .hbm, ⟨86, _⟩ => ⟨S8x512x256, .f32⟩
  | .hbm, ⟨87, _⟩ => ⟨S8x512x256, .f32⟩
  | .hbm, ⟨88, _⟩ => ⟨S8x512x256, .f32⟩
  | .hbm, ⟨89, _⟩ => ⟨S_, .f32⟩
  | .hbm, ⟨90, _⟩ => ⟨S8x512x256, .f32⟩
  | .hbm, ⟨91, _⟩ => ⟨S8x512x256, .f32⟩
  | .hbm, ⟨92, _⟩ => ⟨S8x512x256, .f32⟩
  | .hbm, ⟨93, _⟩ => ⟨S8x512x256, .f32⟩
  | .hbm, ⟨94, _⟩ => ⟨S8x512x256, .i1⟩
  | .hbm, ⟨95, _⟩ => ⟨S8x512x256, .f32⟩
  | .hbm, ⟨96, _⟩ => ⟨S8x512x256, .f32⟩
  | .hbm, ⟨97, _⟩ => ⟨S8x512x256, .f32⟩
  | .hbm, ⟨98, _⟩ => ⟨S8x512x256, .f32⟩
  | .hbm, ⟨99, _⟩ => ⟨S8x512x256, .f32⟩
  | .hbm, ⟨100, _⟩ => ⟨S8x512x256, .f32⟩
  | .hbm, ⟨101, _⟩ => ⟨S8x512x256, .f32⟩
  | .hbm, ⟨102, _⟩ => ⟨S8x512x256, .f32⟩
  | .hbm, ⟨103, _⟩ => ⟨S_, .f32⟩
  | .hbm, ⟨104, _⟩ => ⟨S8x512x256, .f32⟩
  | .hbm, ⟨105, _⟩ => ⟨S8x512x256, .f32⟩
  | _, _ => ⟨S8x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v4 : Ref sig .tc := ⟨.hbm, 33, rfl⟩
abbrev main_cst : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst_0 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_1 : Ref sig .tc := ⟨.hbm, 57, rfl⟩
abbrev main_call1_c_2 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_c_3 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_cst : Ref sig .tc := ⟨.hbm, 69, rfl⟩
abbrev main_call1_v14 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_cst_1 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_call2_cst : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_v36 : Ref sig .tc := ⟨.hbm, 102, rfl⟩
abbrev main_cst_2 : Ref sig .tc := ⟨.hbm, 103, rfl⟩
abbrev main_v37 : Ref sig .tc := ⟨.hbm, 104, rfl⟩
abbrev main_v38 : Ref sig .tc := ⟨.hbm, 105, rfl⟩

abbrev nD : Nat := 1
abbrev τ : Topo := Topo.v7x

variable {F : FTy → Type} [FloatOps F]

class Facts₀ : Prop where
  bcast_S256_S1x1x1x256_3 : S256.BroadcastsInDim S1x1x1x256 (![3] : Fin 1 → Fin S1x1x1x256.rank)
  bcast_S1x1x1x256_S8x512x64x256_0_1_2_3 : S1x1x1x256.BroadcastsInDim S8x512x64x256 (![0, 1, 2, 3] : Fin 4 → Fin S8x512x64x256.rank)
  bcast_S_S8x512x64x256 : S_.BroadcastsInDim S8x512x64x256 (![] : Fin 0 → Fin S8x512x64x256.rank)
  bcast_S_S8x512x64 : S_.BroadcastsInDim S8x512x64 (![] : Fin 0 → Fin S8x512x64.rank)
  bcast_S8x512x64_S8x512x64x1_0_1_2 : S8x512x64.BroadcastsInDim S8x512x64x1 (![0, 1, 2] : Fin 3 → Fin S8x512x64x1.rank)
  bcast_S8x512x64x1_S8x512x64x256_0_1_2_3 : S8x512x64x1.BroadcastsInDim S8x512x64x256 (![0, 1, 2, 3] : Fin 4 → Fin S8x512x64x256.rank)
  shapeCasts_S8x512x64_S8x32768x1 : S8x512x64.ShapeCasts S8x32768x1
  bcast_S_S8x32768x1 : S_.BroadcastsInDim S8x32768x1 (![] : Fin 0 → Fin S8x32768x1.rank)
  bcast_S1_S1x1x1_2 : S1.BroadcastsInDim S1x1x1 (![2] : Fin 1 → Fin S1x1x1.rank)
  bcast_S1x1x1_S8x32768x1_0_1_2 : S1x1x1.BroadcastsInDim S8x32768x1 (![0, 1, 2] : Fin 3 → Fin S8x32768x1.rank)
  reducesTo_S8x32768x1_S8x32768_d2 : S8x32768x1.ReducesTo [2] S8x32768
  h_S_ : 0 < S_.numel
  bcast_S8x32768_S8x32768x256_0_1 : S8x32768.BroadcastsInDim S8x32768x256 (![0, 1] : Fin 2 → Fin S8x32768x256.rank)
  bcast_S_S8x32768x256 : S_.BroadcastsInDim S8x32768x256 (![] : Fin 0 → Fin S8x32768x256.rank)
  shapeCasts_S8x32768x256_S8x512x64x256 : S8x32768x256.ShapeCasts S8x512x64x256
  reducesTo_S8x512x64x256_S8x512x256_d2 : S8x512x64x256.ReducesTo [2] S8x512x256
  bcast_S256_S1x1x256_2 : S256.BroadcastsInDim S1x1x256 (![2] : Fin 1 → Fin S1x1x256.rank)
  bcast_S1x1x256_S8x512x256_0_1_2 : S1x1x256.BroadcastsInDim S8x512x256 (![0, 1, 2] : Fin 3 → Fin S8x512x256.rank)
  bcast_S_S8x512x256 : S_.BroadcastsInDim S8x512x256 (![] : Fin 0 → Fin S8x512x256.rank)
  dot_S8x512x64x128_S128x256_S8x512x64x256_3_0_012_1_n_n_wf : DotDims.WF S8x512x64x128 S128x256 S8x512x64x256 [3] [0] [0, 1, 2] [1] [] []
  dot_S8x512x64x256_S256x256_S8x512x64x256_3_0_012_1_n_n_wf : DotDims.WF S8x512x64x256 S256x256 S8x512x64x256 [3] [0] [0, 1, 2] [1] [] []
  dot_S8x512x256_S256x256_S8x512x256_2_0_01_1_n_n_wf : DotDims.WF S8x512x256 S256x256 S8x512x256 [2] [0] [0, 1] [1] [] []
  gather_S8x512x256_S8x32768x1_S8x32768x256_2_1_0_0_1_2_11256_wf : GatherDims.WF S8x512x256 S8x32768x1 S8x32768x256 [2] [1] [0] [1] [0] 2 ![1, 1, 256]
  dot_S8x512x128_S128x256_S8x512x256_2_0_01_1_n_n_wf : DotDims.WF S8x512x128 S128x256 S8x512x256 [2] [0] [0, 1] [1] [] []

variable [Facts₀]

def dot_S8x512x64x128_S128x256_S8x512x64x256_3_0_012_1_n_n : DotDims S8x512x64x128 S128x256 S8x512x64x256 where
  lhsContracting := [3]
  rhsContracting := [0]
  lhsNonContracting := [0, 1, 2]
  rhsNonContracting := [1]
  lhsBatch := []
  rhsBatch := []
  wf := dot_S8x512x64x128_S128x256_S8x512x64x256_3_0_012_1_n_n_wf
def dot_S8x512x64x256_S256x256_S8x512x64x256_3_0_012_1_n_n : DotDims S8x512x64x256 S256x256 S8x512x64x256 where
  lhsContracting := [3]
  rhsContracting := [0]
  lhsNonContracting := [0, 1, 2]
  rhsNonContracting := [1]
  lhsBatch := []
  rhsBatch := []
  wf := dot_S8x512x64x256_S256x256_S8x512x64x256_3_0_012_1_n_n_wf
def dot_S8x512x256_S256x256_S8x512x256_2_0_01_1_n_n : DotDims S8x512x256 S256x256 S8x512x256 where
  lhsContracting := [2]
  rhsContracting := [0]
  lhsNonContracting := [0, 1]
  rhsNonContracting := [1]
  lhsBatch := []
  rhsBatch := []
  wf := dot_S8x512x256_S256x256_S8x512x256_2_0_01_1_n_n_wf
def gather_S8x512x256_S8x32768x1_S8x32768x256_2_1_0_0_1_2_11256 : GatherDims S8x512x256 S8x32768x1 S8x32768x256 where
  offsetDims := [2]
  collapsedSliceDims := [1]
  operandBatchingDims := [0]
  startIndicesBatchingDims := [0]
  startIndexMap := [1]
  indexVectorDim := 2
  sliceSizes := ![1, 1, 256]
  wf := gather_S8x512x256_S8x32768x1_S8x32768x256_2_1_0_0_1_2_11256_wf
def dot_S8x512x128_S128x256_S8x512x256_2_0_01_1_n_n : DotDims S8x512x128 S128x256 S8x512x256 where
  lhsContracting := [2]
  rhsContracting := [0]
  lhsNonContracting := [0, 1]
  rhsNonContracting := [1]
  lhsBatch := []
  rhsBatch := []
  wf := dot_S8x512x128_S128x256_S8x512x256_2_0_01_1_n_n_wf

class Facts : Prop extends Facts₀ where

variable [Facts]
-- ==== Proof.Spec.lean ====
/-
  The network both programs compute, written once over the argument arrays, coordinate by coordinate, on the
  extended reals.

  For a batch member b and an atom a with neighbour slots n = 0..63:
    hid    = ssp (f_ij · W1 + b1)                       (the filter network's hidden layer, 256 wide)
    filt   = hid · W2 + b2                              (the filter, 256 wide)
    cutoff = 1 if r_ij ≤ 5 else 0
    xf     = x · W_in2f                                 (every atom of the batch member projected)
    sel    = the row of xf the neighbour index names, written as the sum over all rows k of
             [index = k] · xf k  — a sum with at most one non-zero term
    agg    = Σ_n sel · (filt · (cutoff · mask))
    rad1   = agg · W_f2out + b_f2out,   rad2 = rad1 · W_dense + b_dense,   ang = G · W_ang
    out    = ssp (rad2 + ang)
  where ssp t = softplus t − log 2 (the constant as its f32 word) and softplus t = max t 0 + log1p (exp (−|t|)).

  Also here: the scalar facts the two programs' spellings of softplus and of the 0/1 cutoff reduce to, and the
  collapse of the one-hot sum to the selected row when the index is in range.
-/
import Idealize.ShloMosaic.PureOps.Ideal
import Idealize.ShloMosaic.PureOps.Ideal.Laws
import Idealize.ShloMosaic.Lib.ValueIdx

noncomputable section

namespace CFConv

open Idealize.ShloMosaic Idealize.ShloMosaic.ValueIdx

/-- The sixteen argument arrays, floats as extended reals, the neighbour indices as 32-bit words. -/
structure Args where
  x : (⟨3, ![8, 512, 256]⟩ : Shape).Idx → EReal
  r : (⟨3, ![8, 512, 64]⟩ : Shape).Idx → EReal
  f : (⟨4, ![8, 512, 64, 128]⟩ : Shape).Idx → EReal
  g : (⟨3, ![8, 512, 128]⟩ : Shape).Idx → EReal
  msk : (⟨3, ![8, 512, 64]⟩ : Shape).Idx → EReal
  nb : (⟨3, ![8, 512, 64]⟩ : Shape).Idx → BitVec 32
  Win : (⟨2, ![256, 256]⟩ : Shape).Idx → EReal
  W1 : (⟨2, ![128, 256]⟩ : Shape).Idx → EReal
  b1 : (⟨1, ![256]⟩ : Shape).Idx → EReal
  W2 : (⟨2, ![256, 256]⟩ : Shape).Idx → EReal
  b2 : (⟨1, ![256]⟩ : Shape).Idx → EReal
  Wf : (⟨2, ![256, 256]⟩ : Shape).Idx → EReal
  bf : (⟨1, ![256]⟩ : Shape).Idx → EReal
  Wd : (⟨2, ![256, 256]⟩ : Shape).Idx → EReal
  bd : (⟨1, ![256]⟩ : Shape).Idx → EReal
  Wa : (⟨2, ![128, 256]⟩ : Shape).Idx → EReal

/-! ## Scalars -/

/-- log 2 as both programs carry it: the f32 word 0x3F317218. -/
def ln2 : EReal := Ideal.ofBits .f32 0x3F317218#32

/-- The cutoff radius 5.0 as its f32 word. -/
def five : EReal := Ideal.ofBits .f32 0x40A00000#32

/-- softplus t = max t 0 + log (1 + exp (−|t|)). -/
def softplus (t : EReal) : EReal := max t 0 + Ideal.log1p (Ideal.exp (-(max t (-t))))

/-- The shifted softplus. -/
def ssp (t : EReal) : EReal := softplus t - ln2

/-- A one-bit word as the number 0 or 1. -/
def ind (c : BitVec 1) : EReal := if c = 1#1 then 1 else 0

theorem cmp_one_self (t : EReal) : Ideal.cmp .one t t = 0#1 := by
  simp [Ideal.cmp]

theorem cmp_une_self (t : EReal) : Ideal.cmp .une t t = 0#1 := by
  simp [Ideal.cmp]

/-- softplus as the kernel spells it: the guard "t − 0 ≠ t − 0" never fires on the extended reals, and
    0 − |t − 0| is −|t|. -/
theorem softplus_kernel (t : EReal) :
    Scalar.select (Ideal.cmp .one (t - 0) (t - 0)) (t + 0)
      (max t 0 + Ideal.log1p (Ideal.exp (0 - max (t - 0) (-(t - 0))))) = softplus t := by
  rw [cmp_one_self, show Scalar.select (0#1) (t + 0) (max t 0 + Ideal.log1p (Ideal.exp (0 - max (t - 0) (-(t - 0)))))
      = max t 0 + Ideal.log1p (Ideal.exp (0 - max (t - 0) (-(t - 0)))) from if_neg (by decide)]
  unfold softplus
  rw [sub_zero, zero_sub]

/-- softplus as the reference spells it: the same with the unordered guard and a negation. -/
theorem softplus_ref (t : EReal) :
    Scalar.select (Ideal.cmp .une (t - 0) (t - 0)) (t + 0)
      (max t 0 + Ideal.log1p (Ideal.exp (-(max (t - 0) (-(t - 0)))))) = softplus t := by
  rw [cmp_une_self, show Scalar.select (0#1) (t + 0) (max t 0 + Ideal.log1p (Ideal.exp (-(max (t - 0) (-(t - 0))))))
      = max t 0 + Ideal.log1p (Ideal.exp (-(max (t - 0) (-(t - 0))))) from if_neg (by decide)]
  unfold softplus
  rw [sub_zero]

/-- A one-bit word widened to 32 bits and read as a signed integer is 0 or 1. -/
theorem ind_sitofp (c : BitVec 1) : (((c.setWidth 32).toInt : ℝ) : EReal) = ind c := by
  unfold ind
  rcases (by decide : ∀ c : BitVec 1, c = 0#1 ∨ c = 1#1) c with rfl | rfl
  · simp
  · simp

/-- A one-bit word read as an unsigned integer is 0 or 1. -/
theorem ind_uitofp (c : BitVec 1) : (((c.toNat : ℕ) : ℝ) : EReal) = ind c := by
  unfold ind
  rcases (by decide : ∀ c : BitVec 1, c = 0#1 ∨ c = 1#1) c with rfl | rfl
  · simp
  · simp

/-! ## The stages -/

variable (A : Args)

/-- The filter network's hidden layer. -/
def hid (b : Fin 8) (a : Fin 512) (n : Fin 64) (f : Fin 256) : EReal :=
  ssp ((∑ s : Fin 128, A.f (ix4 b a n s) * A.W1 (ix2 s f)) + A.b1 (ix1 f))

/-- The filter. -/
def filt (b : Fin 8) (a : Fin 512) (n : Fin 64) (g : Fin 256) : EReal :=
  (∑ f : Fin 256, hid A b a n f * A.W2 (ix2 f g)) + A.b2 (ix1 g)

/-- 1 where the distance is within the cutoff radius. -/
def cutoff (b : Fin 8) (a : Fin 512) (n : Fin 64) : EReal := ind (Ideal.cmp .ole (A.r (ix3 b a n)) five)

/-- Atom k of batch member b projected by W_in2f. -/
def xf (b : Fin 8) (k : Fin 512) (f : Fin 256) : EReal := ∑ d : Fin 256, A.x (ix3 b k d) * A.Win (ix2 d f)

/-- The projected row the neighbour index names, as a sum over all 512 rows against the index's indicator. -/
def sel (b : Fin 8) (a : Fin 512) (n : Fin 64) (f : Fin 256) : EReal :=
  ∑ k : Fin 512, ind (IntOp.cmpi .eq (A.nb (ix3 b a n)) (BitVec.ofNat 32 k.val)) * xf A b k f

/-- The masked, filtered sum over the neighbour slots. -/
def agg (b : Fin 8) (a : Fin 512) (f : Fin 256) : EReal :=
  ∑ n : Fin 64, sel A b a n f * (filt A b a n f * (cutoff A b a n * A.msk (ix3 b a n)))

def rad1 (b : Fin 8) (a : Fin 512) (e : Fin 256) : EReal := (∑ f : Fin 256, agg A b a f * A.Wf (ix2 f e)) + A.bf (ix1 e)

def rad2 (b : Fin 8) (a : Fin 512) (d : Fin 256) : EReal := (∑ e : Fin 256, rad1 A b a e * A.Wd (ix2 e d)) + A.bd (ix1 d)

def ang (b : Fin 8) (a : Fin 512) (d : Fin 256) : EReal := ∑ g : Fin 128, A.g (ix3 b a g) * A.Wa (ix2 g d)

/-- The result at (b, a, d). -/
def outAt (b : Fin 8) (a : Fin 512) (d : Fin 256) : EReal := ssp (rad2 A b a d + ang A b a d)

/-- The result array. -/
def out : (⟨3, ![8, 512, 256]⟩ : Shape).Idx → EReal := fun i => outAt A (i 0) (i 1) (i 2)

theorem out_ix3 (b : Fin 8) (a : Fin 512) (d : Fin 256) : out A (ix3 b a d) = outAt A b a d := rfl

/-! ## The one-hot sum -/

/-- A sum over k of [w = k] · v k has the one term k = w when w, read signed, lies in [0, 512). -/
theorem onehot_sum (w : BitVec 32) (h0 : 0 ≤ w.toInt) (h1 : w.toInt < 512) (v : Fin 512 → EReal) :
    (∑ k : Fin 512, ind (IntOp.cmpi .eq w (BitVec.ofNat 32 k.val)) * v k) = v ⟨w.toInt.toNat, by omega⟩ := by
  have hw : w.toNat = w.toInt.toNat := by
    have := w.isLt
    unfold BitVec.toInt at h0 h1 ⊢
    split at h0 <;> omega
  rw [Finset.sum_eq_single (⟨w.toInt.toNat, by omega⟩ : Fin 512)]
  · have : IntOp.cmpi .eq w (BitVec.ofNat 32 w.toInt.toNat) = 1#1 := by
      unfold IntOp.cmpi
      have e : w = BitVec.ofNat 32 w.toInt.toNat := by
        apply BitVec.eq_of_toNat_eq
        rw [BitVec.toNat_ofNat, ← hw]
        exact (Nat.mod_eq_of_lt w.isLt).symm
      simp [← e]
    show ind (IntOp.cmpi .eq w (BitVec.ofNat 32 w.toInt.toNat)) * _ = _
    rw [this]
    simp [ind]
  · intro k _ hk
    have : IntOp.cmpi .eq w (BitVec.ofNat 32 k.val) = 0#1 := by
      unfold IntOp.cmpi
      have ne : w ≠ BitVec.ofNat 32 k.val := by
        intro e
        apply hk
        apply Fin.ext
        have := congrArg BitVec.toNat e
        rw [BitVec.toNat_ofNat, Nat.mod_eq_of_lt (by have := k.isLt; omega)] at this
        show k.val = w.toInt.toNat
        omega
      rw [show (w == BitVec.ofNat 32 k.val) = false from beq_eq_false_iff_ne.mpr ne]
      rfl
    rw [this]
    simp [ind]
  · intro h; exact absurd (Finset.mem_univ _) h

/-- So, for an index in range, the selected row is the row of xf at that index. -/
theorem sel_eq (b : Fin 8) (a : Fin 512) (n : Fin 64) (f : Fin 256)
    (h0 : 0 ≤ (A.nb (ix3 b a n)).toInt) (h1 : (A.nb (ix3 b a n)).toInt < 512) :
    sel A b a n f = xf A b ⟨(A.nb (ix3 b a n)).toInt.toNat, by omega⟩ f :=
  onehot_sum _ h0 h1 fun k => xf A b k f

end CFConv

end
-- ==== Proof.KerFilter.lean ====
/- The kernel's filter network on one block of 64 atoms: the block's filter at (a, n, g), from the loaded blocks. -/
import proofs.«407454_j2774548873990_1_alg».proof.Proof.Gen.KernelIdeal.Skeleton
import proofs.«407454_j2774548873990_1_alg».proof.Proof.Spec
import Idealize.ShloMosaic.Lib.Pipeline.Value
import Idealize.ShloMosaic.PureOps.Ideal.Laws

noncomputable section

namespace CFConv.Ker

open Idealize.ShloMosaic Idealize.ShloMosaic.ValueIdx CFConv
open Cert.KernelIdeal Cert.KernelIdeal.Gen

namespace Filter

/-! ## The block's rows

The block holds 64 atoms with 64 neighbour slots each; the two products run over its 4096 rows, row
`64 * a + n` for atom `a` and slot `n`. -/

/-- Row `64 * a + n` of the flattened block. -/
abbrev row (a n : Fin 64) : Fin 4096 := ⟨64 * a.val + n.val, by have := a.isLt; have := n.isLt; omega⟩

/-- The loaded block `[1, 64, 64, 128]` flattened to `[4096, 128]` reads, at `(64 * a + n, s)`, the block at
    `(0, a, n, s)`: the three index tuples have the same row-major position. -/
theorem flat_in_apply (v : FVec Ideal S1x64x64x128 .bf16) (h1 : S1x64x64x128.ShapeCasts S64x64x128)
    (h2 : S64x64x128.ShapeCasts S4096x128) (a n : Fin 64) (s : Fin 128) :
    shapeCast S4096x128 (shapeCast S64x64x128 v h1) h2 (ix2 (row a n) s) = v (ix4 (0 : Fin 1) a n s) := by
  refine (shapeCast_apply _ h2 (ix2 (row a n) s) (ix3 a n s) ?_).trans ?_
  · rw [Shape.rowMajor_val_three, Shape.rowMajor_val_two]
    show (a.val * 64 + n.val) * 128 + s.val = (64 * a.val + n.val) * 128 + s.val
    omega
  · refine shapeCast_apply v h1 (ix3 a n s) (ix4 (0 : Fin 1) a n s) ?_
    rw [Shape.rowMajor_val_four, Shape.rowMajor_val_three]
    show ((0 * 64 + a.val) * 64 + n.val) * 128 + s.val = (a.val * 64 + n.val) * 128 + s.val
    omega

/-- The `[4096, 256]` result folded back to `[64, 64, 256]` reads, at `(a, n, g)`, row `64 * a + n`. -/
theorem fold_out_apply (x : FVec Ideal S4096x256 .f32) (h : S4096x256.ShapeCasts S64x64x256) (a n : Fin 64) (g : Fin 256) :
    shapeCast S64x64x256 x h (ix3 a n g) = x (ix2 (row a n) g) := by
  refine shapeCast_apply x h (ix3 a n g) (ix2 (row a n) g) ?_
  rw [Shape.rowMajor_val_two, Shape.rowMajor_val_three]
  show (64 * a.val + n.val) * 256 + g.val = (a.val * 64 + n.val) * 256 + g.val
  omega

/-- A bias row `[1, 256]` spread over the 4096 rows reads, at `(p, c)`, the row at `c`. -/
theorem bias_apply (v : FVec Ideal S1x256 .f32) (h : S1x256.Broadcasts S4096x256) (p : Fin 4096) (c : Fin 256) :
    broadcastTo S4096x256 v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if (256 : ℕ) = 1 then 0 else c.val
    rw [if_neg (by decide)]

/-! ## The two products

Each is a product of a `[4096, K]` by a `[K, 256]` matrix into a zero accumulator: at `(p, c)` the sum over the one
contracted coordinate `k` of the left factor at `(p, k)` times the right factor at `(k, c)`. The four axis lemmas say
which coordinate of the result index or of the contraction index each operand axis reads. -/

theorem lhs_hid_0 (i : S4096x256.Idx) (q : dot_S4096x128_S128x256_S4096x256_1_0_0_1_n_n.contr.Idx) :
    (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
theorem lhs_hid_1 (i : S4096x256.Idx) (q : dot_S4096x128_S128x256_S4096x256_1_0_0_1_n_n.contr.Idx) :
    (dot_S4096x128_S128x256_S4096x256_1_0_0_1_n_n.lhsIdx i q 1).val = (q ⟨0, by decide⟩).val :=
  dot_S4096x128_S128x256_S4096x256_1_0_0_1_n_n.lhsIdx_val_of_single rfl i q
theorem rhs_hid_0 (i : S4096x256.Idx) (q : dot_S4096x128_S128x256_S4096x256_1_0_0_1_n_n.contr.Idx) :
    (dot_S4096x128_S128x256_S4096x256_1_0_0_1_n_n.rhsIdx i q 0).val = (q ⟨0, by decide⟩).val :=
  dot_S4096x128_S128x256_S4096x256_1_0_0_1_n_n.rhsIdx_val_of_single rfl i q
theorem rhs_hid_1 (i : S4096x256.Idx) (q : dot_S4096x128_S128x256_S4096x256_1_0_0_1_n_n.contr.Idx) :
    (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- The first product (the hidden layer before its bias), \`K = 128\`. -/
theorem mm_hid_apply (l : FVec Ideal S4096x128 .bf16) (r : FVec Ideal S128x256 .bf16) (p : Fin 4096) (c : Fin 256) :
    matmul dot_S4096x128_S128x256_S4096x256_1_0_0_1_n_n none l r (constant (F := Ideal) S4096x256 .f32 0x00000000#32) (ix2 p c)
      = ∑ k : Fin 128, l (ix2 p k) * r (ix2 k c) := by
  refine (Ideal.matmul_constant_zero_apply dot_S4096x128_S128x256_S4096x256_1_0_0_1_n_n none l r (ix2 p c)).trans ?_
  rw [← Equiv.sum_comp (ValueIdx.contrEquiv1 dot_S4096x128_S128x256_S4096x256_1_0_0_1_n_n 128 rfl rfl).symm]
  refine Finset.sum_congr rfl fun k _ => ?_
  have hk := ValueIdx.contrEquiv1_symm_val dot_S4096x128_S128x256_S4096x256_1_0_0_1_n_n 128 rfl rfl k
  have el : dot_S4096x128_S128x256_S4096x256_1_0_0_1_n_n.lhsIdx (ix2 p c) ((ValueIdx.contrEquiv1 dot_S4096x128_S128x256_S4096x256_1_0_0_1_n_n 128 rfl rfl).symm k) = ix2 p k := funext fun a => Fin.ext (by
    match a with
    | ⟨0, _⟩ => exact lhs_hid_0 _ _
    | ⟨1, _⟩ => exact (lhs_hid_1 _ _).trans hk)
  have er : dot_S4096x128_S128x256_S4096x256_1_0_0_1_n_n.rhsIdx (ix2 p c) ((ValueIdx.contrEquiv1 dot_S4096x128_S128x256_S4096x256_1_0_0_1_n_n 128 rfl rfl).symm k) = ix2 k c := funext fun a => Fin.ext (by
    match a with
    | ⟨0, _⟩ => exact (rhs_hid_0 _ _).trans hk
    | ⟨1, _⟩ => exact rhs_hid_1 _ _)
  rw [el, er]

theorem lhs_out_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_out_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_out_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_out_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The second product (the filter before its bias), \`K = 256\`. -/
theorem mm_out_apply (l : FVec Ideal S4096x256 .bf16) (r : FVec Ideal S256x256 .bf16) (p : Fin 4096) (c : Fin 256) :
    matmul dot_S4096x256_S256x256_S4096x256_1_0_0_1_n_n none l r (constant (F := Ideal) S4096x256 .f32 0x00000000#32) (ix2 p c)
      = ∑ k : Fin 256, l (ix2 p k) * r (ix2 k c) := by
  refine (Ideal.matmul_constant_zero_apply dot_S4096x256_S256x256_S4096x256_1_0_0_1_n_n none l r (ix2 p c)).trans ?_
  rw [← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 p c) ((ValueIdx.contrEquiv1 dot_S4096x256_S256x256_S4096x256_1_0_0_1_n_n 256 rfl rfl).symm k) = ix2 p k := funext fun a => Fin.ext (by
    match a with
    | ⟨0, _⟩ => exact lhs_out_0 _ _
    | ⟨1, _⟩ => exact (lhs_out_1 _ _).trans hk)
  have er : dot_S4096x256_S256x256_S4096x256_1_0_0_1_n_n.rhsIdx (ix2 p c) ((ValueIdx.contrEquiv1 dot_S4096x256_S256x256_S4096x256_1_0_0_1_n_n 256 rfl rfl).symm k) = ix2 k c := funext fun a => Fin.ext (by
    match a with
    | ⟨0, _⟩ => exact (rhs_out_0 _ _).trans hk
    | ⟨1, _⟩ => exact rhs_out_1 _ _)
  rw [el, er]

/-! ## The shifted softplus, lane by lane -/

/-- The body's spelling of the shifted softplus on a vector `x`, with `z` its zero constant, read at an index: the guard
    `x − z ≠ x − z` never holds on the extended reals, so the lane is `max x 0 + log1p (exp (−|x|))` less `log 2`. -/
theorem ssp_lane {s : Shape} (x : FVec Ideal s .f32) (z : Ideal .f32) (hz : z = 0)
    (h : FTy.bits .bf16 < FTy.bits .f32) (i : s.Idx) :
    truncf .bf16 (subf (select (cmpf .one (subf x (broadcast s z)) (subf x (broadcast s z))) (addf x (broadcast s z))
        (addf (maximumf x (broadcast s z)) (log1p (exp (subf (broadcast s z) (absf (subf x (broadcast s z))))))))
      (broadcast s (FloatOps.ofBits (F := Ideal) .f32 0x3F317218#32))) h i = ssp (x i) := by
  subst hz
  show Scalar.select (Ideal.cmp .one (x i - 0) (x i - 0)) (x i + 0)
      (max (x i) 0 + Ideal.log1p (Ideal.exp (0 - max (x i - 0) (-(x i - 0))))) - Ideal.ofBits .f32 0x3F317218#32 = ssp (x i)
  rw [softplus_kernel]
  rfl

end Filter

open Filter

/-! ## The filter at (a, n, g) -/

theorem pay2_apply (v0 : FVec Ideal S1x64x64x128 .bf16) (v3 : FVec Ideal S128x256 .bf16) (v5 : FVec Ideal S1x256 .f32)
    (v27 : FVec Ideal S256x256 .bf16) (v29 : FVec Ideal S1x256 .f32) (a n : Fin 64) (g : Fin 256) :
    k0_pay2 (F := Ideal) v0 v3 v5 v27 v29 (ix3 a n g)
      = (∑ f : Fin 256, ssp ((∑ s : Fin 128, v0 (ix4 (0 : Fin 1) a n s) * v3 (ix2 s f)) + v5 (ix2 (0 : Fin 1) f)) * v27 (ix2 f g))
        + v29 (ix2 (0 : Fin 1) g) := by
  unfold k0_pay2
  -- the folded result at (a, n, g) is row 64 a + n of the second product plus its bias
  refine (fold_out_apply _ _ a n g).trans ?_
  refine (addf_apply _ _ _).trans ?_
  refine congr (congrArg _ ?_) ?_
  · -- the second product, a sum over the hidden coordinate f
    refine (mm_out_apply _ _ (row a n) g).trans ?_
    refine Finset.sum_congr rfl fun f _ => ?_
    refine congr (congrArg _ ?_) ?_
    · -- the hidden layer at (64 a + n, f): the shifted softplus of the first product plus its bias
      refine (ssp_lane _ _ Ideal.ofBits_zero_f32 _ _).trans ?_
      refine congrArg ssp ?_
      refine (addf_apply _ _ _).trans ?_
      refine congr (congrArg _ ?_) ?_
      · refine (mm_hid_apply _ _ (row a n) f).trans ?_
        refine Finset.sum_congr rfl fun s _ => ?_
        refine congr (congrArg _ ?_) ?_
        · exact flat_in_apply v0 _ _ a n s
        · exact congrFun (shapeCast_self v3 _) _
      · exact (bias_apply _ _ (row a n) f).trans (congrFun (shapeCast_self v5 _) _)
    · exact congrFun (shapeCast_self v27 _) _
  · exact (bias_apply _ _ (row a n) g).trans (congrFun (shapeCast_self v29 _) _)

theorem pay3_apply (v35 : FVec Ideal S1x64x64 .f32) (a n : Fin 64) :
    k0_pay3 (F := Ideal) v35 (ix2 a n) = v35 (ix3 (0 : Fin 1) a n) := by
  unfold k0_pay3
  refine shapeCast_apply v35 _ (ix2 a n) (ix3 (0 : Fin 1) a n) ?_
  rw [Shape.rowMajor_val_three, Shape.rowMajor_val_two]
  show (0 * 64 + a.val) * 64 + n.val = a.val * 64 + n.val
  omega

end CFConv.Ker

end
-- ==== Proof.KerGather.lean ====
/- The kernel's gather by a one-hot product, the masked sum over the neighbour slots and the first output layer, on
   one block of 64 atoms: the value at (a, e), from the loaded blocks and the filter v34. -/
import proofs.«407454_j2774548873990_1_alg».proof.Proof.Gen.KernelIdeal.Skeleton
import proofs.«407454_j2774548873990_1_alg».proof.Proof.Spec
import Idealize.ShloMosaic.Lib.Pipeline.Value
import Idealize.ShloMosaic.Lib.ValueIdx
import Idealize.ShloMosaic.PureOps.Ideal.Laws

noncomputable section

namespace CFConv.Ker

open Idealize.ShloMosaic Idealize.ShloMosaic.ValueIdx CFConv
open Cert.KernelIdeal Cert.KernelIdeal.Gen

/-! ## Shape casts and broadcasts read at coordinates

Row r of a [4096, ·] array is (a, n) of the [64, 64, ·] array with r = 64·a + n; a leading or trailing unit axis
does not move an element. -/

section Layout
variable {α : Type}

/-- The row 64·a + n of the 4096 rows. -/
abbrev row (a n : Fin 64) : Fin 4096 := ⟨64 * a.val + n.val, by omega⟩

theorem cast_1x64x64 (x : S1x64x64.Idx → α) (h : S1x64x64.ShapeCasts S64x64) (a n : Fin 64) :
    shapeCast S64x64 x h (ix2 a n) = x (ix3 (0 : Fin 1) a n) :=
  shapeCast_apply x h (ix2 a n) (ix3 (0 : Fin 1) a n) (by
    rw [Shape.rowMajor_val_three, Shape.rowMajor_val_two]
    show (0 * 64 + a.val) * 64 + n.val = a.val * 64 + n.val
    omega)

theorem cast_64x64x1 (x : S64x64.Idx → α) (h : S64x64.ShapeCasts S64x64x1) (a n : Fin 64) :
    shapeCast S64x64x1 x h (ix3 a n (0 : Fin 1)) = x (ix2 a n) :=
  shapeCast_apply x h (ix3 a n (0 : Fin 1)) (ix2 a n) (by
    rw [Shape.rowMajor_val_three, Shape.rowMajor_val_two]
    show a.val * 64 + n.val = (a.val * 64 + n.val) * 1 + 0
    omega)

theorem cast_1x512x256 (x : S1x512x256.Idx → α) (h : S1x512x256.ShapeCasts S512x256) (k : Fin 512) (d : Fin 256) :
    shapeCast S512x256 x h (ix2 k d) = x (ix3 (0 : Fin 1) k d) :=
  shapeCast_apply x h (ix2 k d) (ix3 (0 : Fin 1) k d) (by
    rw [Shape.rowMajor_val_three, Shape.rowMajor_val_two]
    show (0 * 512 + k.val) * 256 + d.val = k.val * 256 + d.val
    omega)

theorem cast_64x64x512 (x : S64x64x512.Idx → α) (h : S64x64x512.ShapeCasts S4096x512) (a n : Fin 64) (k : Fin 512) :
    shapeCast S4096x512 x h (ix2 (row a n) k) = x (ix3 a n k) :=
  shapeCast_apply x h (ix2 (row a n) k) (ix3 a n k) (by
    rw [Shape.rowMajor_val_three, Shape.rowMajor_val_two]
    show (a.val * 64 + n.val) * 512 + k.val = (64 * a.val + n.val) * 512 + k.val
    omega)

theorem cast_4096x256 (x : S4096x256.Idx → α) (h : S4096x256.ShapeCasts S64x64x256) (a n : Fin 64) (f : Fin 256) :
    shapeCast S64x64x256 x h (ix3 a n f) = x (ix2 (row a n) f) :=
  shapeCast_apply x h (ix3 a n f) (ix2 (row a n) f) (by
    rw [Shape.rowMajor_val_three, Shape.rowMajor_val_two]
    show (64 * a.val + n.val) * 256 + f.val = (a.val * 64 + n.val) * 256 + f.val
    omega)

theorem bcast_64x64x1_256 (x : S64x64x1.Idx → α) (h : S64x64x1.Broadcasts S64x64x256) (a n : Fin 64) (f : Fin 256) :
    broadcastTo S64x64x256 x h (ix3 a n f) = x (ix3 a n (0 : Fin 1)) :=
  broadcastTo_apply x h (ix3 a n f) (ix3 a n (0 : Fin 1)) (fun b => match b with
    | ⟨0, _⟩ => by show a.val = if (64 : Nat) = 1 then 0 else a.val; rw [if_neg (by decide)]
    | ⟨1, _⟩ => by show n.val = if (64 : Nat) = 1 then 0 else n.val; rw [if_neg (by decide)]
    | ⟨2, _⟩ => by show (0 : Nat) = if (1 : Nat) = 1 then 0 else f.val; rw [if_pos rfl])

theorem bcast_64x64x1_512 (x : S64x64x1.Idx → α) (h : S64x64x1.Broadcasts S64x64x512) (a n : Fin 64) (k : Fin 512) :
    broadcastTo S64x64x512 x h (ix3 a n k) = x (ix3 a n (0 : Fin 1)) :=
  broadcastTo_apply x h (ix3 a n k) (ix3 a n (0 : Fin 1)) (fun b => match b with
    | ⟨0, _⟩ => by show a.val = if (64 : Nat) = 1 then 0 else a.val; rw [if_neg (by decide)]
    | ⟨1, _⟩ => by show n.val = if (64 : Nat) = 1 then 0 else n.val; rw [if_neg (by decide)]
    | ⟨2, _⟩ => by show (0 : Nat) = if (1 : Nat) = 1 then 0 else k.val; rw [if_pos rfl])

theorem bcast_1x1x512 (x : S1x1x512.Idx → α) (h : S1x1x512.Broadcasts S64x64x512) (a n : Fin 64) (k : Fin 512) :
    broadcastTo S64x64x512 x h (ix3 a n k) = x (ix3 (0 : Fin 1) (0 : Fin 1) k) :=
  broadcastTo_apply x h (ix3 a n k) (ix3 (0 : Fin 1) (0 : Fin 1) k) (fun b => match b with
    | ⟨0, _⟩ => by show (0 : Nat) = if (1 : Nat) = 1 then 0 else a.val; rw [if_pos rfl]
    | ⟨1, _⟩ => by show (0 : Nat) = if (1 : Nat) = 1 then 0 else n.val; rw [if_pos rfl]
    | ⟨2, _⟩ => by show k.val = if (512 : Nat) = 1 then 0 else k.val; rw [if_neg (by decide)])

theorem bcast_1x256 (x : S1x256.Idx → α) (h : S1x256.Broadcasts S64x256) (a : Fin 64) (e : Fin 256) :
    broadcastTo S64x256 x h (ix2 a e) = x (ix2 (0 : Fin 1) e) :=
  broadcastTo_apply x h (ix2 a e) (ix2 (0 : Fin 1) e) (fun b => match b with
    | ⟨0, _⟩ => by show (0 : Nat) = if (1 : Nat) = 1 then 0 else a.val; rw [if_pos rfl]
    | ⟨1, _⟩ => by show e.val = if (256 : Nat) = 1 then 0 else e.val; rw [if_neg (by decide)])

end Layout

/-! ## The three matrix products at an index -/

theorem lhs_proj_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs_proj_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs_proj_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs_proj_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl
/-- The [512, 256] × [256, 256] product into a zero accumulator at (p, c): the sum over the 256 contracted coordinates. -/
theorem matmul_proj_apply (l : FVec Ideal S512x256 .bf16) (r : FVec Ideal S256x256 .bf16) (p : Fin 512) (c : Fin 256) :
    matmul dot_S512x256_S256x256_S512x256_1_0_0_1_n_n none l r (constant (F := Ideal) S512x256 .f32 0x00000000#32) (ix2 p c)
      = ∑ k : Fin 256, l (ix2 p k) * r (ix2 k c) := by
  show FloatOps.matmul dot_S512x256_S256x256_S512x256_1_0_0_1_n_n none l r (constant (F := Ideal) S512x256 .f32 0x00000000#32) (ix2 p c) = _
  rw [Ideal.matmul_constant_zero_apply, ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 p c) ((contrEquiv1 dot_S512x256_S256x256_S512x256_1_0_0_1_n_n 256 rfl rfl).symm k) = ix2 p k := funext fun b => Fin.ext (by
    match b with
    | ⟨0, _⟩ => exact lhs_proj_0 _ _
    | ⟨1, _⟩ => exact (lhs_proj_1 _ _).trans hk)
  have er : dot_S512x256_S256x256_S512x256_1_0_0_1_n_n.rhsIdx (ix2 p c) ((contrEquiv1 dot_S512x256_S256x256_S512x256_1_0_0_1_n_n 256 rfl rfl).symm k) = ix2 k c := funext fun b => Fin.ext (by
    match b with
    | ⟨0, _⟩ => exact (rhs_proj_0 _ _).trans hk
    | ⟨1, _⟩ => exact rhs_proj_1 _ _)
  rw [el, er]

theorem lhs_gather_0 (i : S4096x256.Idx) (q : dot_S4096x512_S512x256_S4096x256_1_0_0_1_n_n.contr.Idx) :
    (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide), dif_pos (show (0 : Fin S4096x512.rank) ∈ dot_S4096x512_S512x256_S4096x256_1_0_0_1_n_n.lhsNonContracting by decide)]
  rfl
theorem lhs_gather_1 (i : S4096x256.Idx) (q : dot_S4096x512_S512x256_S4096x256_1_0_0_1_n_n.contr.Idx) :
    (dot_S4096x512_S512x256_S4096x256_1_0_0_1_n_n.lhsIdx i q 1).val = (q ⟨0, by decide⟩).val :=
  dot_S4096x512_S512x256_S4096x256_1_0_0_1_n_n.lhsIdx_val_of_single rfl i q
theorem rhs_gather_0 (i : S4096x256.Idx) (q : dot_S4096x512_S512x256_S4096x256_1_0_0_1_n_n.contr.Idx) :
    (dot_S4096x512_S512x256_S4096x256_1_0_0_1_n_n.rhsIdx i q 0).val = (q ⟨0, by decide⟩).val :=
  dot_S4096x512_S512x256_S4096x256_1_0_0_1_n_n.rhsIdx_val_of_single rfl i q
theorem rhs_gather_1 (i : S4096x256.Idx) (q : dot_S4096x512_S512x256_S4096x256_1_0_0_1_n_n.contr.Idx) :
    (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide), dif_pos (show (1 : Fin S512x256.rank) ∈ dot_S4096x512_S512x256_S4096x256_1_0_0_1_n_n.rhsNonContracting by decide)]
  rfl
/-- The [4096, 512] × [512, 256] product into a zero accumulator at (p, c): the sum over the 512 contracted coordinates. -/
theorem matmul_gather_apply (l : FVec Ideal S4096x512 .bf16) (r : FVec Ideal S512x256 .bf16) (p : Fin 4096) (c : Fin 256) :
    matmul dot_S4096x512_S512x256_S4096x256_1_0_0_1_n_n none l r (constant (F := Ideal) S4096x256 .f32 0x00000000#32) (ix2 p c)
      = ∑ k : Fin 512, l (ix2 p k) * r (ix2 k c) := by
  show FloatOps.matmul dot_S4096x512_S512x256_S4096x256_1_0_0_1_n_n none l r (constant (F := Ideal) S4096x256 .f32 0x00000000#32) (ix2 p c) = _
  rw [Ideal.matmul_constant_zero_apply, ← Equiv.sum_comp (contrEquiv1 dot_S4096x512_S512x256_S4096x256_1_0_0_1_n_n 512 rfl rfl).symm]
  refine Finset.sum_congr rfl fun k _ => ?_
  have hk := contrEquiv1_symm_val dot_S4096x512_S512x256_S4096x256_1_0_0_1_n_n 512 rfl rfl k
  have el : dot_S4096x512_S512x256_S4096x256_1_0_0_1_n_n.lhsIdx (ix2 p c) ((contrEquiv1 dot_S4096x512_S512x256_S4096x256_1_0_0_1_n_n 512 rfl rfl).symm k) = ix2 p k := funext fun b => Fin.ext (by
    match b with
    | ⟨0, _⟩ => exact lhs_gather_0 _ _
    | ⟨1, _⟩ => exact (lhs_gather_1 _ _).trans hk)
  have er : dot_S4096x512_S512x256_S4096x256_1_0_0_1_n_n.rhsIdx (ix2 p c) ((contrEquiv1 dot_S4096x512_S512x256_S4096x256_1_0_0_1_n_n 512 rfl rfl).symm k) = ix2 k c := funext fun b => Fin.ext (by
    match b with
    | ⟨0, _⟩ => exact (rhs_gather_0 _ _).trans hk
    | ⟨1, _⟩ => exact rhs_gather_1 _ _)
  rw [el, er]

theorem lhs_out_0 (i : S64x256.Idx) (q : dot_S64x256_S256x256_S64x256_1_0_0_1_n_n.contr.Idx) :
    (dot_S64x256_S256x256_S64x256_1_0_0_1_n_n.lhsIdx i q 0).val = (i 0).val := by
  unfold DotDims.lhsIdx
  rw [dif_neg (show ¬(0 : Fin S64x256.rank) ∈ dot_S64x256_S256x256_S64x256_1_0_0_1_n_n.lhsBatch by decide), dif_pos (show (0 : Fin S64x256.rank) ∈ dot_S64x256_S256x256_S64x256_1_0_0_1_n_n.lhsNonContracting by decide)]
  rfl
theorem lhs_out_1 (i : S64x256.Idx) (q : dot_S64x256_S256x256_S64x256_1_0_0_1_n_n.contr.Idx) :
    (dot_S64x256_S256x256_S64x256_1_0_0_1_n_n.lhsIdx i q 1).val = (q ⟨0, by decide⟩).val :=
  dot_S64x256_S256x256_S64x256_1_0_0_1_n_n.lhsIdx_val_of_single rfl i q
theorem rhs_out_0 (i : S64x256.Idx) (q : dot_S64x256_S256x256_S64x256_1_0_0_1_n_n.contr.Idx) :
    (dot_S64x256_S256x256_S64x256_1_0_0_1_n_n.rhsIdx i q 0).val = (q ⟨0, by decide⟩).val :=
  dot_S64x256_S256x256_S64x256_1_0_0_1_n_n.rhsIdx_val_of_single rfl i q
theorem rhs_out_1 (i : S64x256.Idx) (q : dot_S64x256_S256x256_S64x256_1_0_0_1_n_n.contr.Idx) :
    (dot_S64x256_S256x256_S64x256_1_0_0_1_n_n.rhsIdx i q 1).val = (i 1).val := by
  unfold DotDims.rhsIdx
  rw [dif_neg (show ¬(1 : Fin S256x256.rank) ∈ dot_S64x256_S256x256_S64x256_1_0_0_1_n_n.rhsBatch by decide), dif_pos (show (1 : Fin S256x256.rank) ∈ dot_S64x256_S256x256_S64x256_1_0_0_1_n_n.rhsNonContracting by decide)]
  rfl
/-- The [64, 256] × [256, 256] product into a zero accumulator at (p, c): the sum over the 256 contracted coordinates. -/
theorem matmul_out_apply (l : FVec Ideal S64x256 .bf16) (r : FVec Ideal S256x256 .bf16) (p : Fin 64) (c : Fin 256) :
    matmul dot_S64x256_S256x256_S64x256_1_0_0_1_n_n none l r (constant (F := Ideal) S64x256 .f32 0x00000000#32) (ix2 p c)
      = ∑ k : Fin 256, l (ix2 p k) * r (ix2 k c) := by
  show FloatOps.matmul dot_S64x256_S256x256_S64x256_1_0_0_1_n_n none l r (constant (F := Ideal) S64x256 .f32 0x00000000#32) (ix2 p c) = _
  rw [Ideal.matmul_constant_zero_apply, ← Equiv.sum_comp (contrEquiv1 dot_S64x256_S256x256_S64x256_1_0_0_1_n_n 256 rfl rfl).symm]
  refine Finset.sum_congr rfl fun k _ => ?_
  have hk := contrEquiv1_symm_val dot_S64x256_S256x256_S64x256_1_0_0_1_n_n 256 rfl rfl k
  have el : dot_S64x256_S256x256_S64x256_1_0_0_1_n_n.lhsIdx (ix2 p c) ((contrEquiv1 dot_S64x256_S256x256_S64x256_1_0_0_1_n_n 256 rfl rfl).symm k) = ix2 p k := funext fun b => Fin.ext (by
    match b with
    | ⟨0, _⟩ => exact lhs_out_0 _ _
    | ⟨1, _⟩ => exact (lhs_out_1 _ _).trans hk)
  have er : dot_S64x256_S256x256_S64x256_1_0_0_1_n_n.rhsIdx (ix2 p c) ((contrEquiv1 dot_S64x256_S256x256_S64x256_1_0_0_1_n_n 256 rfl rfl).symm k) = ix2 k c := funext fun b => Fin.ext (by
    match b with
    | ⟨0, _⟩ => exact (rhs_out_0 _ _).trans hk
    | ⟨1, _⟩ => exact rhs_out_1 _ _)
  rw [el, er]

/-! ## The position vector, the lane sum, the 0/1 words -/

/-- The position vector at (0, 0, k) is the word k. -/
theorem iota_apply (h : S1x1x512.Iotas .tc 32 [2]) (k : Fin 512) :
    iota .tc S1x1x512 32 [2] h (ix3 (0 : Fin 1) (0 : Fin 1) k) = BitVec.ofNat 32 k.val := by
  show BitVec.ofNat 32 (0 * 512 + k.val) = BitVec.ofNat 32 k.val
  exact congrArg (BitVec.ofNat 32) (by omega)

/-- The sum over the 64 neighbour slots, at (a, f). -/
theorem sum_slots (src : FVec Ideal S64x64x256 .f32) (h : S64x64x256.Reduces [1] S64x256) (hφ : FKind.Formats .f32)
    (hacc : (0x00000000#32 : BitVec 32) = 0x00000000#32) (a : Fin 64) (f : Fin 256) :
    multiReduction (F := Ideal) .add [1] S64x256 src 0x00000000#32 h hφ hacc (ix2 a f)
      = ∑ n : Fin 64, src (ix3 a n f) := by
  refine (Ideal.multiReduction_add_single src 0x00000000#32 h hφ hacc (ix2 a f)).trans ?_
  refine Finset.sum_congr rfl fun n _ => congrArg src ?_
  funext b
  apply Fin.ext
  match b with
  | ⟨0, _⟩ => rfl
  | ⟨1, _⟩ => rfl
  | ⟨2, _⟩ => rfl

/-- A one-bit vector widened to 32 bits and converted as a signed integer reads 0 or 1. -/
theorem sitofp_bit {s : Shape} (c : IVec s 1) (h : 1 < 32) (i : s.Idx) :
    (sitofp .f32 (extui 32 c h) : FVec Ideal s .f32) i = ind (c i) :=
  ind_sitofp (c i)

/-- The payload at (a, e). -/
theorem pay4_apply (v34 : FVec Ideal S64x64x256 .f32) (v36 : FVec Ideal S64x64 .f32) (v37 : FVec Ideal S1x64x64 .f32)
    (v47 : FVec Ideal S1x512x256 .bf16) (v49 : FVec Ideal S256x256 .bf16) (v53 : IVec S1x64x64 32)
    (v68 : FVec Ideal S256x256 .bf16) (v70 : FVec Ideal S1x256 .f32) (a : Fin 64) (e : Fin 256) :
    k0_pay4 (F := Ideal) v34 v36 v37 v47 v49 v53 v68 v70 (ix2 a e)
      = (∑ f : Fin 256,
          (∑ n : Fin 64,
            (∑ k : Fin 512, ind (IntOp.cmpi .eq (v53 (ix3 (0 : Fin 1) a n)) (BitVec.ofNat 32 k.val))
              * (∑ d : Fin 256, v47 (ix3 (0 : Fin 1) k d) * v49 (ix2 d f)))
            * (v34 (ix3 a n f) * (ind (Ideal.cmp .ole (v36 (ix2 a n)) five) * v37 (ix3 (0 : Fin 1) a n))))
          * v68 (ix2 f e))
        + v70 (ix2 (0 : Fin 1) e) := by
  unfold k0_pay4
  refine (addf_apply _ _ _).trans ?_
  refine congrArg₂ (· + ·) ?_ ?_
  · -- the first output layer: a product over the 256 filter channels
    refine (matmul_out_apply _ _ a e).trans ?_
    refine Finset.sum_congr rfl fun f _ => ?_
    refine congrArg₂ (· * ·) ?_ (congrFun (shapeCast_self _ Facts₀.shapeCasts_S256x256_S256x256) _)
    refine (truncf_apply (ψ := .bf16) _ Facts₀.bitsLt_bf16_f32 _).trans ?_
    refine (sum_slots _ Facts₀.reduces_S64x64x256_S64x256 (.inl rfl) rfl a f).trans ?_
    refine Finset.sum_congr rfl fun n _ => ?_
    refine (mulf_apply _ _ _).trans ?_
    refine congrArg₂ (· * ·) ?_ ?_
    · -- the gathered row: row 64·a + n of the one-hot product
      refine (cast_4096x256 _ Facts₀.shapeCasts_S4096x256_S64x64x256 a n f).trans ?_
      refine (matmul_gather_apply _ _ (row a n) f).trans ?_
      refine Finset.sum_congr rfl fun k _ => ?_
      refine congrArg₂ (· * ·) ?_ ?_
      · -- the one-hot entry
        refine (cast_64x64x512 _ Facts₀.shapeCasts_S64x64x512_S4096x512 a n k).trans ?_
        refine (truncf_apply (ψ := .bf16) _ Facts₀.bitsLt_bf16_f32 _).trans ?_
        refine (sitofp_bit _ Facts₀.natLt_1_32 _).trans ?_
        refine congrArg ind ?_
        exact congrArg₂ (IntOp.cmpi .eq)
          ((bcast_64x64x1_512 _ Facts₀.broadcasts_S64x64x1_S64x64x512 a n k).trans
            ((cast_64x64x1 _ Facts₀.shapeCasts_S64x64_S64x64x1 a n).trans
              (cast_1x64x64 _ Facts₀.shapeCasts_S1x64x64_S64x64 a n)))
          ((bcast_1x1x512 _ Facts₀.broadcasts_S1x1x512_S64x64x512 a n k).trans
            (iota_apply Facts₀.iota_S1x1x512_d2_w32 k))
      · -- the projected atom k
        refine (truncf_apply (ψ := .bf16) _ Facts₀.bitsLt_bf16_f32 _).trans ?_
        refine (matmul_proj_apply _ _ k f).trans ?_
        refine Finset.sum_congr rfl fun d _ => ?_
        exact congrArg₂ (· * ·) (cast_1x512x256 _ Facts₀.shapeCasts_S1x512x256_S512x256 k d)
          (congrFun (shapeCast_self _ Facts₀.shapeCasts_S256x256_S256x256) _)
    · -- the filter times the cutoff mask
      refine (mulf_apply _ _ _).trans ?_
      refine congrArg₂ (· * ·) rfl ?_
      refine (bcast_64x64x1_256 _ Facts₀.broadcasts_S64x64x1_S64x64x256 a n f).trans ?_
      refine (cast_64x64x1 _ Facts₀.shapeCasts_S64x64_S64x64x1 a n).trans ?_
      refine (mulf_apply _ _ _).trans ?_
      exact congrArg₂ (· * ·) (sitofp_bit _ Facts₀.natLt_1_32 _) (cast_1x64x64 _ Facts₀.shapeCasts_S1x64x64_S64x64 a n)
  · -- the bias row
    exact (bcast_1x256 _ Facts₀.broadcasts_S1x256_S64x256 a e).trans
      (congrFun (shapeCast_self _ Facts₀.shapeCasts_S1x256_S1x256) _)

end CFConv.Ker

end
-- ==== Proof.KerOut.lean ====
/- The kernel's last two layers on one block of 64 atoms: the stored value at (0, a, d), from the loaded blocks and
   the first output layer v75.

   The payload is: the dense layer v75 · v76 (a product into a zero accumulator, so the plain sum over the 256
   contracted coordinates) plus the bias row v78 repeated over the 64 atoms; the angular layer v84 · v86 (again a
   product into a zero accumulator, the sum over 128 coordinates, the block v84 first losing its leading unit axis);
   the sum of the two; the shifted softplus applied at every coordinate, spelt with a guard "t − 0 ≠ t − 0" that never
   fires on the extended reals; and a leading unit axis put back. On the extended reals a change of float format is
   the identity, so the narrowing of v75 before the product does nothing. -/
import proofs.«407454_j2774548873990_1_alg».proof.Proof.Gen.KernelIdeal.Skeleton
import proofs.«407454_j2774548873990_1_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

namespace CFConv.Ker

open Idealize.ShloMosaic Idealize.ShloMosaic.ValueIdx CFConv
open Cert.KernelIdeal Cert.KernelIdeal.Gen

/-! ## The two products' operand indices

For a [64, K] × [K, 256] product contracting the left operand's axis 1 with the right operand's axis 0, at the output
index i and the contraction index q: the left operand is read at (i 0, q) and the right one at (q, i 1). -/

theorem dense_lhs_0 (i : S64x256.Idx) (q : dot_S64x256_S256x256_S64x256_1_0_0_1_n_n.contr.Idx) :
    (dot_S64x256_S256x256_S64x256_1_0_0_1_n_n.lhsIdx i q 0).val = (i 0).val := by
  unfold DotDims.lhsIdx
  rw [dif_neg (show ¬(0 : Fin S64x256.rank) ∈ dot_S64x256_S256x256_S64x256_1_0_0_1_n_n.lhsBatch by decide), dif_pos (show (0 : Fin S64x256.rank) ∈ dot_S64x256_S256x256_S64x256_1_0_0_1_n_n.lhsNonContracting by decide)]
  rfl
theorem dense_lhs_1 (i : S64x256.Idx) (q : dot_S64x256_S256x256_S64x256_1_0_0_1_n_n.contr.Idx) :
    (dot_S64x256_S256x256_S64x256_1_0_0_1_n_n.lhsIdx i q 1).val = (q ⟨0, by decide⟩).val :=
  dot_S64x256_S256x256_S64x256_1_0_0_1_n_n.lhsIdx_val_of_single rfl i q
theorem dense_rhs_0 (i : S64x256.Idx) (q : dot_S64x256_S256x256_S64x256_1_0_0_1_n_n.contr.Idx) :
    (dot_S64x256_S256x256_S64x256_1_0_0_1_n_n.rhsIdx i q 0).val = (q ⟨0, by decide⟩).val :=
  dot_S64x256_S256x256_S64x256_1_0_0_1_n_n.rhsIdx_val_of_single rfl i q
theorem dense_rhs_1 (i : S64x256.Idx) (q : dot_S64x256_S256x256_S64x256_1_0_0_1_n_n.contr.Idx) :
    (dot_S64x256_S256x256_S64x256_1_0_0_1_n_n.rhsIdx i q 1).val = (i 1).val := by
  unfold DotDims.rhsIdx
  rw [dif_neg (show ¬(1 : Fin S256x256.rank) ∈ dot_S64x256_S256x256_S64x256_1_0_0_1_n_n.rhsBatch by decide), dif_pos (show (1 : Fin S256x256.rank) ∈ dot_S64x256_S256x256_S64x256_1_0_0_1_n_n.rhsNonContracting by decide)]
  rfl

theorem ang_lhs_0 (i : S64x256.Idx) (q : dot_S64x128_S128x256_S64x256_1_0_0_1_n_n.contr.Idx) :
    (dot_S64x128_S128x256_S64x256_1_0_0_1_n_n.lhsIdx i q 0).val = (i 0).val := by
  unfold DotDims.lhsIdx
  rw [dif_neg (show ¬(0 : Fin S64x128.rank) ∈ dot_S64x128_S128x256_S64x256_1_0_0_1_n_n.lhsBatch by decide), dif_pos (show (0 : Fin S64x128.rank) ∈ dot_S64x128_S128x256_S64x256_1_0_0_1_n_n.lhsNonContracting by decide)]
  rfl
theorem ang_lhs_1 (i : S64x256.Idx) (q : dot_S64x128_S128x256_S64x256_1_0_0_1_n_n.contr.Idx) :
    (dot_S64x128_S128x256_S64x256_1_0_0_1_n_n.lhsIdx i q 1).val = (q ⟨0, by decide⟩).val :=
  dot_S64x128_S128x256_S64x256_1_0_0_1_n_n.lhsIdx_val_of_single rfl i q
theorem ang_rhs_0 (i : S64x256.Idx) (q : dot_S64x128_S128x256_S64x256_1_0_0_1_n_n.contr.Idx) :
    (dot_S64x128_S128x256_S64x256_1_0_0_1_n_n.rhsIdx i q 0).val = (q ⟨0, by decide⟩).val :=
  dot_S64x128_S128x256_S64x256_1_0_0_1_n_n.rhsIdx_val_of_single rfl i q
theorem ang_rhs_1 (i : S64x256.Idx) (q : dot_S64x128_S128x256_S64x256_1_0_0_1_n_n.contr.Idx) :
    (dot_S64x128_S128x256_S64x256_1_0_0_1_n_n.rhsIdx i q 1).val = (i 1).val := by
  unfold DotDims.rhsIdx
  rw [dif_neg (show ¬(1 : Fin S128x256.rank) ∈ dot_S64x128_S128x256_S64x256_1_0_0_1_n_n.rhsBatch by decide), dif_pos (show (1 : Fin S128x256.rank) ∈ dot_S64x128_S128x256_S64x256_1_0_0_1_n_n.rhsNonContracting by decide)]
  rfl

/-! ## The two products at (a, d) -/

/-- The dense layer's product into a zero accumulator, at (a, d): the sum over the 256 contracted coordinates. -/
theorem dense_apply (x : FVec Ideal S64x256 .bf16) (w : FVec Ideal S256x256 .bf16) (a : Fin 64) (d : Fin 256) :
    matmul (F := Ideal) dot_S64x256_S256x256_S64x256_1_0_0_1_n_n none x w (constant S64x256 .f32 0x00000000#32) (ix2 a d)
      = ∑ k : Fin 256, x (ix2 a k) * w (ix2 k d) := by
  refine (Ideal.matmul_constant_zero_apply dot_S64x256_S256x256_S64x256_1_0_0_1_n_n none x w (ix2 a d)).trans ?_
  rw [← Equiv.sum_comp (ValueIdx.contrEquiv1 dot_S64x256_S256x256_S64x256_1_0_0_1_n_n 256 rfl rfl).symm]
  refine Finset.sum_congr rfl fun k _ => ?_
  have hk := ValueIdx.contrEquiv1_symm_val dot_S64x256_S256x256_S64x256_1_0_0_1_n_n 256 rfl rfl k
  have el : dot_S64x256_S256x256_S64x256_1_0_0_1_n_n.lhsIdx (ix2 a d) ((ValueIdx.contrEquiv1 dot_S64x256_S256x256_S64x256_1_0_0_1_n_n 256 rfl rfl).symm k) = ix2 a k := funext fun c => Fin.ext (by
    match c with
    | ⟨0, _⟩ => exact dense_lhs_0 _ _
    | ⟨1, _⟩ => exact (dense_lhs_1 _ _).trans hk)
  have er : dot_S64x256_S256x256_S64x256_1_0_0_1_n_n.rhsIdx (ix2 a d) ((ValueIdx.contrEquiv1 dot_S64x256_S256x256_S64x256_1_0_0_1_n_n 256 rfl rfl).symm k) = ix2 k d := funext fun c => Fin.ext (by
    match c with
    | ⟨0, _⟩ => exact (dense_rhs_0 _ _).trans hk
    | ⟨1, _⟩ => exact dense_rhs_1 _ _)
  rw [el, er]

/-- The angular layer's product into a zero accumulator, at (a, d): the sum over the 128 contracted coordinates. -/
theorem ang_apply (x : FVec Ideal S64x128 .bf16) (w : FVec Ideal S128x256 .bf16) (a : Fin 64) (d : Fin 256) :
    matmul (F := Ideal) dot_S64x128_S128x256_S64x256_1_0_0_1_n_n none x w (constant S64x256 .f32 0x00000000#32) (ix2 a d)
      = ∑ k : Fin 128, x (ix2 a k) * w (ix2 k d) := by
  refine (Ideal.matmul_constant_zero_apply dot_S64x128_S128x256_S64x256_1_0_0_1_n_n none x w (ix2 a d)).trans ?_
  rw [← Equiv.sum_comp (ValueIdx.contrEquiv1 dot_S64x128_S128x256_S64x256_1_0_0_1_n_n 128 rfl rfl).symm]
  refine Finset.sum_congr rfl fun k _ => ?_
  have hk := ValueIdx.contrEquiv1_symm_val dot_S64x128_S128x256_S64x256_1_0_0_1_n_n 128 rfl rfl k
  have el : dot_S64x128_S128x256_S64x256_1_0_0_1_n_n.lhsIdx (ix2 a d) ((ValueIdx.contrEquiv1 dot_S64x128_S128x256_S64x256_1_0_0_1_n_n 128 rfl rfl).symm k) = ix2 a k := funext fun c => Fin.ext (by
    match c with
    | ⟨0, _⟩ => exact ang_lhs_0 _ _
    | ⟨1, _⟩ => exact (ang_lhs_1 _ _).trans hk)
  have er : dot_S64x128_S128x256_S64x256_1_0_0_1_n_n.rhsIdx (ix2 a d) ((ValueIdx.contrEquiv1 dot_S64x128_S128x256_S64x256_1_0_0_1_n_n 128 rfl rfl).symm k) = ix2 k d := funext fun c => Fin.ext (by
    match c with
    | ⟨0, _⟩ => exact (ang_rhs_0 _ _).trans hk
    | ⟨1, _⟩ => exact ang_rhs_1 _ _)
  rw [el, er]

/-! ## The shifted softplus as the kernel spells it -/

/-- At one number: the guarded softplus with the zero words read as 0, minus the word of log 2. -/
theorem ssp_kernel (t : EReal) :
    Scalar.select (Ideal.cmp .one (t - Ideal.ofBits .f32 0x00000000#32) (t - Ideal.ofBits .f32 0x00000000#32))
        (t + Ideal.ofBits .f32 0x00000000#32)
        (max t (Ideal.ofBits .f32 0x00000000#32) + Ideal.log1p (Ideal.exp (Ideal.ofBits .f32 0x00000000#32
          - max (t - Ideal.ofBits .f32 0x00000000#32) (-(t - Ideal.ofBits .f32 0x00000000#32)))))
      - Ideal.ofBits .f32 0x3F317218#32 = ssp t := by
  rw [Ideal.ofBits_zero_f32, softplus_kernel]
  rfl

/-- On a [64, 256] array, coordinate by coordinate: every operation of the spelling acts at one coordinate. -/
theorem ssp_vec_apply (v : FVec Ideal S64x256 .f32) (j : S64x256.Idx) :
    subf
      (select (cmpf .one (subf v (broadcast S64x256 (Scalar.ofBits (F := Ideal) .f32 0x00000000#32))) (subf v (broadcast S64x256 (Scalar.ofBits (F := Ideal) .f32 0x00000000#32))))
        (addf v (broadcast S64x256 (Scalar.ofBits (F := Ideal) .f32 0x00000000#32)))
        (addf (maximumf v (broadcast S64x256 (Scalar.ofBits (F := Ideal) .f32 0x00000000#32)))
          (Idealize.ShloMosaic.log1p (Idealize.ShloMosaic.exp (subf (broadcast S64x256 (Scalar.ofBits (F := Ideal) .f32 0x00000000#32)) (absf (subf v (broadcast S64x256 (Scalar.ofBits (F := Ideal) .f32 0x00000000#32)))))))))
      (broadcast S64x256 (Scalar.ofBits (F := Ideal) .f32 0x3F317218#32)) j = ssp (v j) :=
  ssp_kernel (v j)

/-- A sum of three arrays at a coordinate. -/
theorem addf3_apply (x y z : FVec Ideal S64x256 .f32) (j : S64x256.Idx) : addf (addf x y) z j = x j + y j + z j := rfl

theorem add3_congr {x y z x' y' z' : EReal} (hx : x = x') (hy : y = y') (hz : z = z') : x + y + z = x' + y' + z' := by
  rw [hx, hy, hz]

/-! ## The payload at (0, a, d) -/

theorem pay1_apply (v75 : FVec Ideal S64x256 .f32) (v76 : FVec Ideal S256x256 .bf16) (v78 : FVec Ideal S1x256 .f32)
    (v84 : FVec Ideal S1x64x128 .bf16) (v86 : FVec Ideal S128x256 .bf16) (a : Fin 64) (d : Fin 256) :
    k0_pay1 (F := Ideal) v75 v76 v78 v84 v86 (ix3 (0 : Fin 1) a d)
      = ssp (((∑ e : Fin 256, v75 (ix2 a e) * v76 (ix2 e d)) + v78 (ix2 (0 : Fin 1) d))
          + ∑ g : Fin 128, v84 (ix3 (0 : Fin 1) a g) * v86 (ix2 g d)) := by
  unfold k0_pay1
  -- the leading unit axis put back: read the [64, 256] array at (a, d)
  refine (shapeCast_ab_1ab_apply _ _ (0 : Fin 1) a d).trans ?_
  -- the shifted softplus at that coordinate
  refine (ssp_vec_apply _ (ix2 a d)).trans ?_
  refine congrArg ssp ?_
  -- its argument: dense layer + bias row + angular layer
  refine (addf3_apply _ _ _ _).trans ?_
  refine add3_congr ?_ ?_ ?_
  · -- the dense layer: the weight's cast is to its own shape, the narrowing of v75 is the identity
    rw [shapeCast_self]
    exact dense_apply (truncf .bf16 v75 bitsLt_bf16_f32) v76 a d
  · -- the bias: one row repeated over the atoms
    refine (broadcastTo_1b_ab_apply _ _ a d).trans ?_
    exact congrFun (shapeCast_self v78 _) _
  · -- the angular layer: the block without its leading unit axis
    refine (ang_apply _ _ a d).trans (Finset.sum_congr rfl fun g _ => ?_)
    exact congrArg₂ (· * ·) (shapeCast_1ab_ab_apply v84 _ a g) (congrFun (shapeCast_self v86 _) _)

end CFConv.Ker

end
-- ==== Proof.KerBlocks.lean ====
/-
  From the grid's blocks to the whole result array.

  Grid point t stands for batch member t / 8 and atoms 64 · (t % 8) … 64 · (t % 8) + 63.  At t the input windows hand the
  body: the rows of f_ij, r_ij, the mask, the neighbour indices and G_i of those 64 atoms; ALL 512 atoms of x for the batch
  member (the gather may name any of them); and the weights and biases whole (the biases as [1, 256] rows).  The arrays
  the windows read are the arguments themselves: the conversions to bf16 before the region are the identity on the
  extended reals, and the bias rows are reshapes.  So the block the body stores is the specification's result on those 64
  atoms; the 64 blocks tile the [8, 512, 256] result; and the array after the run is the specification's.
-/
import proofs.«407454_j2774548873990_1_alg».proof.Proof.Gen.KernelIdeal.Value
import proofs.«407454_j2774548873990_1_alg».proof.Proof.Spec
import proofs.«407454_j2774548873990_1_alg».proof.Proof.KerFilter
import proofs.«407454_j2774548873990_1_alg».proof.Proof.KerGather
import proofs.«407454_j2774548873990_1_alg».proof.Proof.KerOut
import Idealize.ShloMosaic.Lib.StableHlo.Run
import Idealize.ShloMosaic.Lib.Pipeline.Value
import Idealize.ShloMosaic.Lib.ValueIdx

set_option maxRecDepth 16384

noncomputable section

namespace CFConv.Ker

open Idealize.ShloMosaic Idealize.ShloMosaic.TcCoe Idealize.ShloMosaic.ValueIdx Idealize.SL.Sem
open Cert.KernelIdeal Cert.KernelIdeal.Gen
open Idealize.ShloMosaic.Pipeline (Dat)
open CFConv

variable (m : (ℓ : Loc nD τ sig) → Buf (Elt Ideal) ℓ) (ρ : Dev nD → PrngReg)

/-- The kernel program's sixteen arguments on device c, as the specification's arrays. -/
def args (c : Dev nD) : Args where
  x := m ((c : Thread nD τ).loc main_arg0)
  r := m ((c : Thread nD τ).loc main_arg1)
  f := m ((c : Thread nD τ).loc main_arg2)
  g := m ((c : Thread nD τ).loc main_arg3)
  msk := m ((c : Thread nD τ).loc main_arg4)
  nb := m ((c : Thread nD τ).loc main_arg5)
  Win := m ((c : Thread nD τ).loc main_arg6)
  W1 := m ((c : Thread nD τ).loc main_arg7)
  b1 := m ((c : Thread nD τ).loc main_arg8)
  W2 := m ((c : Thread nD τ).loc main_arg9)
  b2 := m ((c : Thread nD τ).loc main_arg10)
  Wf := m ((c : Thread nD τ).loc main_arg11)
  bf := m ((c : Thread nD τ).loc main_arg12)
  Wd := m ((c : Thread nD τ).loc main_arg13)
  bd := m ((c : Thread nD τ).loc main_arg14)
  Wa := m ((c : Thread nD τ).loc main_arg15)

/-! ## The grid -/

theorem lt64 (t : Fin cfg0.N) : t.val < 64 := by
  have h := t.isLt
  have e : cfg0.N = 64 := N_0
  omega

/-- The batch member of point t. -/
def bOf (t : Fin cfg0.N) : Fin 8 := ⟨t.val / 8, by have := lt64 t; omega⟩

/-- Atom a of point t's 64. -/
def rowOf (t : Fin cfg0.N) (a : Fin 64) : Fin 512 := ⟨64 * (t.val % 8) + a.val, by have := a.isLt; omega⟩

/-- The output's and the per-atom input windows' block indices at point t: (t / 8, t % 8, 0 …). -/
theorem idx16 : ∀ t : Fin cfg0.N, win0_16.index t (0 : Fin 3) = t.val / 8 ∧ win0_16.index t (1 : Fin 3) = t.val % 8 ∧ win0_16.index t (2 : Fin 3) = 0 :=
  (by decide +kernel : ∀ t : Fin grid0.N, _)
theorem idx0 : ∀ t : Fin cfg0.N, win0_0.index t (0 : Fin 4) = t.val / 8 ∧ win0_0.index t (1 : Fin 4) = t.val % 8 ∧ win0_0.index t (2 : Fin 4) = 0 ∧ win0_0.index t (3 : Fin 4) = 0 :=
  (by decide +kernel : ∀ t : Fin grid0.N, _)
theorem idx1 : ∀ t : Fin cfg0.N, win0_1.index t (0 : Fin 3) = t.val / 8 ∧ win0_1.index t (1 : Fin 3) = t.val % 8 ∧ win0_1.index t (2 : Fin 3) = 0 :=
  (by decide +kernel : ∀ t : Fin grid0.N, _)
theorem idx2 : ∀ t : Fin cfg0.N, win0_2.index t (0 : Fin 3) = t.val / 8 ∧ win0_2.index t (1 : Fin 3) = t.val % 8 ∧ win0_2.index t (2 : Fin 3) = 0 :=
  (by decide +kernel : ∀ t : Fin grid0.N, _)
theorem idx3 : ∀ t : Fin cfg0.N, win0_3.index t (0 : Fin 3) = t.val / 8 ∧ win0_3.index t (1 : Fin 3) = t.val % 8 ∧ win0_3.index t (2 : Fin 3) = 0 :=
  (by decide +kernel : ∀ t : Fin grid0.N, _)
/-- The x window takes the whole batch member. -/
theorem idx4 : ∀ t : Fin cfg0.N, win0_4.index t (0 : Fin 3) = t.val / 8 ∧ win0_4.index t (1 : Fin 3) = 0 ∧ win0_4.index t (2 : Fin 3) = 0 :=
  (by decide +kernel : ∀ t : Fin grid0.N, _)
theorem idx5 : ∀ t : Fin cfg0.N, win0_5.index t (0 : Fin 3) = t.val / 8 ∧ win0_5.index t (1 : Fin 3) = t.val % 8 ∧ win0_5.index t (2 : Fin 3) = 0 :=
  (by decide +kernel : ∀ t : Fin grid0.N, _)
/-- The weight and bias windows are the whole arrays at every point. -/
theorem idxW : ∀ t : Fin cfg0.N,
    (win0_6.index t (0 : Fin 2) = 0 ∧ win0_6.index t (1 : Fin 2) = 0) ∧ (win0_7.index t (0 : Fin 2) = 0 ∧ win0_7.index t (1 : Fin 2) = 0)
    ∧ (win0_8.index t (0 : Fin 2) = 0 ∧ win0_8.index t (1 : Fin 2) = 0) ∧ (win0_9.index t (0 : Fin 2) = 0 ∧ win0_9.index t (1 : Fin 2) = 0)
    ∧ (win0_10.index t (0 : Fin 2) = 0 ∧ win0_10.index t (1 : Fin 2) = 0) ∧ (win0_11.index t (0 : Fin 2) = 0 ∧ win0_11.index t (1 : Fin 2) = 0)
    ∧ (win0_12.index t (0 : Fin 2) = 0 ∧ win0_12.index t (1 : Fin 2) = 0) ∧ (win0_13.index t (0 : Fin 2) = 0 ∧ win0_13.index t (1 : Fin 2) = 0)
    ∧ (win0_14.index t (0 : Fin 2) = 0 ∧ win0_14.index t (1 : Fin 2) = 0) ∧ (win0_15.index t (0 : Fin 2) = 0 ∧ win0_15.index t (1 : Fin 2) = 0) :=
  (by decide +kernel : ∀ t : Fin grid0.N, _)

/-! ## The arrays the windows read, as the region finds them -/

/-- The conversion of argument 0 to bf16 is the identity on the extended reals. -/
theorem V_main_v0 (c : Dev nD) : (V m c main_v0 : S8x512x256.Idx → EReal) = m ((c : Thread nD τ).loc main_arg0) := by
  dsimp only [Gen.V, Gen.hostOps0]; after_results; rfl
/-- The conversion of argument 2 to bf16 is the identity on the extended reals. -/
theorem V_main_v1 (c : Dev nD) : (V m c main_v1 : S8x512x64x128.Idx → EReal) = m ((c : Thread nD τ).loc main_arg2) := by
  dsimp only [Gen.V, Gen.hostOps0]; after_results; rfl
/-- The conversion of argument 3 to bf16 is the identity on the extended reals. -/
theorem V_main_v2 (c : Dev nD) : (V m c main_v2 : S8x512x128.Idx → EReal) = m ((c : Thread nD τ).loc main_arg3) := by
  dsimp only [Gen.V, Gen.hostOps0]; after_results; rfl
/-- The conversion of argument 6 to bf16 is the identity on the extended reals. -/
theorem V_main_v3 (c : Dev nD) : (V m c main_v3 : S256x256.Idx → EReal) = m ((c : Thread nD τ).loc main_arg6) := by
  dsimp only [Gen.V, Gen.hostOps0]; after_results; rfl
/-- The conversion of argument 7 to bf16 is the identity on the extended reals. -/
theorem V_main_v4 (c : Dev nD) : (V m c main_v4 : S128x256.Idx → EReal) = m ((c : Thread nD τ).loc main_arg7) := by
  dsimp only [Gen.V, Gen.hostOps0]; after_results; rfl
/-- The conversion of argument 9 to bf16 is the identity on the extended reals. -/
theorem V_main_v5 (c : Dev nD) : (V m c main_v5 : S256x256.Idx → EReal) = m ((c : Thread nD τ).loc main_arg9) := by
  dsimp only [Gen.V, Gen.hostOps0]; after_results; rfl
/-- The conversion of argument 11 to bf16 is the identity on the extended reals. -/
theorem V_main_v6 (c : Dev nD) : (V m c main_v6 : S256x256.Idx → EReal) = m ((c : Thread nD τ).loc main_arg11) := by
  dsimp only [Gen.V, Gen.hostOps0]; after_results; rfl
/-- The conversion of argument 13 to bf16 is the identity on the extended reals. -/
theorem V_main_v7 (c : Dev nD) : (V m c main_v7 : S256x256.Idx → EReal) = m ((c : Thread nD τ).loc main_arg13) := by
  dsimp only [Gen.V, Gen.hostOps0]; after_results; rfl
/-- The conversion of argument 15 to bf16 is the identity on the extended reals. -/
theorem V_main_v8 (c : Dev nD) : (V m c main_v8 : S128x256.Idx → EReal) = m ((c : Thread nD τ).loc main_arg15) := by
  dsimp only [Gen.V, Gen.hostOps0]; after_results; rfl
/-- Bias 8 as a [1, 256] row. -/
theorem V_main_v9 (c : Dev nD) (z : Fin 1) (f : Fin 256) : (V m c main_v9 : S1x256.Idx → EReal) (ix2 z f) = m ((c : Thread nD τ).loc main_arg8) (ix1 f) := by
  have e : (V m c main_v9 : S1x256.Idx → EReal) = shapeCast S1x256 (m ((c : Thread nD τ).loc main_arg8)) shapeCasts_S256_S1x256 := by
    dsimp only [Gen.V, Gen.hostOps0]; after_results; rfl
  rw [e]
  refine shapeCast_apply _ shapeCasts_S256_S1x256 (ix2 z f) (ix1 f) ?_
  rewrite [Shape.rowMajor_val_one, Shape.rowMajor_val_two]
  have hz := z.isLt
  show f.val = z.val * 256 + f.val
  omega
/-- Bias 10 as a [1, 256] row. -/
theorem V_main_v10 (c : Dev nD) (z : Fin 1) (f : Fin 256) : (V m c main_v10 : S1x256.Idx → EReal) (ix2 z f) = m ((c : Thread nD τ).loc main_arg10) (ix1 f) := by
  have e : (V m c main_v10 : S1x256.Idx → EReal) = shapeCast S1x256 (m ((c : Thread nD τ).loc main_arg10)) shapeCasts_S256_S1x256 := by
    dsimp only [Gen.V, Gen.hostOps0]; after_results; rfl
  rw [e]
  refine shapeCast_apply _ shapeCasts_S256_S1x256 (ix2 z f) (ix1 f) ?_
  rewrite [Shape.rowMajor_val_one, Shape.rowMajor_val_two]
  have hz := z.isLt
  show f.val = z.val * 256 + f.val
  omega
/-- Bias 12 as a [1, 256] row. -/
theorem V_main_v11 (c : Dev nD) (z : Fin 1) (f : Fin 256) : (V m c main_v11 : S1x256.Idx → EReal) (ix2 z f) = m ((c : Thread nD τ).loc main_arg12) (ix1 f) := by
  have e : (V m c main_v11 : S1x256.Idx → EReal) = shapeCast S1x256 (m ((c : Thread nD τ).loc main_arg12)) shapeCasts_S256_S1x256 := by
    dsimp only [Gen.V, Gen.hostOps0]; after_results; rfl
  rw [e]
  refine shapeCast_apply _ shapeCasts_S256_S1x256 (ix2 z f) (ix1 f) ?_
  rewrite [Shape.rowMajor_val_one, Shape.rowMajor_val_two]
  have hz := z.isLt
  show f.val = z.val * 256 + f.val
  omega
/-- Bias 14 as a [1, 256] row. -/
theorem V_main_v12 (c : Dev nD) (z : Fin 1) (f : Fin 256) : (V m c main_v12 : S1x256.Idx → EReal) (ix2 z f) = m ((c : Thread nD τ).loc main_arg14) (ix1 f) := by
  have e : (V m c main_v12 : S1x256.Idx → EReal) = shapeCast S1x256 (m ((c : Thread nD τ).loc main_arg14)) shapeCasts_S256_S1x256 := by
    dsimp only [Gen.V, Gen.hostOps0]; after_results; rfl
  rw [e]
  refine shapeCast_apply _ shapeCasts_S256_S1x256 (ix2 z f) (ix1 f) ?_
  rewrite [Shape.rowMajor_val_one, Shape.rowMajor_val_two]
  have hz := z.isLt
  show f.val = z.val * 256 + f.val
  omega

/-! ## The blocks at a point -/

theorem blk0 (c : Dev nD) (t : Fin cfg0.N) (z : Fin 1) (a n : Fin 64) (s : Fin 128) :
    (iblk m c 0 t : FVec Ideal S1x64x64x128 .bf16) (ix4 z a n s) = m ((c : Thread nD τ).loc main_arg2) (ix4 (bOf t) (rowOf t a) n s) := by
  obtain ⟨e0, e1, e2, e3⟩ := idx0 t
  unfold iblk
  rw [View.read_apply]
  show V m c main_v1 _ = _
  rw [V_main_v1]
  congr 1
  funext ax; apply Fin.ext
  have hz := z.isLt
  match ax with
  | ⟨0, _⟩ => show win0_0.index t (0 : Fin 4) * 1 + 1 * z.val = t.val / 8; omega
  | ⟨1, _⟩ => show win0_0.index t (1 : Fin 4) * 64 + 1 * a.val = 64 * (t.val % 8) + a.val; omega
  | ⟨2, _⟩ => show win0_0.index t (2 : Fin 4) * 64 + 1 * n.val = n.val; omega
  | ⟨3, _⟩ => show win0_0.index t (3 : Fin 4) * 128 + 1 * s.val = s.val; omega
theorem blk1 (c : Dev nD) (t : Fin cfg0.N) (z : Fin 1) (a : Fin 64) (n : Fin 64) :
    (iblk m c 1 t : FVec Ideal S1x64x64 .f32) (ix3 z a n) = m ((c : Thread nD τ).loc main_arg1) (ix3 (bOf t) (rowOf t a) n) := by
  obtain ⟨e0, e1, e2⟩ := idx1 t
  unfold iblk
  rw [View.read_apply]
  show V m c main_arg1 _ = _
  rw [V_main_arg1]
  congr 1
  funext ax; apply Fin.ext
  have hz := z.isLt
  match ax with
  | ⟨0, _⟩ => show win0_1.index t (0 : Fin 3) * 1 + 1 * z.val = t.val / 8; omega
  | ⟨1, _⟩ => show win0_1.index t (1 : Fin 3) * 64 + 1 * a.val = 64 * (t.val % 8) + a.val; omega
  | ⟨2, _⟩ => show win0_1.index t (2 : Fin 3) * 64 + 1 * n.val = n.val; omega
theorem blk2 (c : Dev nD) (t : Fin cfg0.N) (z : Fin 1) (a : Fin 64) (n : Fin 64) :
    (iblk m c 2 t : FVec Ideal S1x64x64 .f32) (ix3 z a n) = m ((c : Thread nD τ).loc main_arg4) (ix3 (bOf t) (rowOf t a) n) := by
  obtain ⟨e0, e1, e2⟩ := idx2 t
  unfold iblk
  rw [View.read_apply]
  show V m c main_arg4 _ = _
  rw [V_main_arg4]
  congr 1
  funext ax; apply Fin.ext
  have hz := z.isLt
  match ax with
  | ⟨0, _⟩ => show win0_2.index t (0 : Fin 3) * 1 + 1 * z.val = t.val / 8; omega
  | ⟨1, _⟩ => show win0_2.index t (1 : Fin 3) * 64 + 1 * a.val = 64 * (t.val % 8) + a.val; omega
  | ⟨2, _⟩ => show win0_2.index t (2 : Fin 3) * 64 + 1 * n.val = n.val; omega
theorem blk3 (c : Dev nD) (t : Fin cfg0.N) (z : Fin 1) (a : Fin 64) (n : Fin 64) :
    (iblk m c 3 t : IVec S1x64x64 32) (ix3 z a n) = m ((c : Thread nD τ).loc main_arg5) (ix3 (bOf t) (rowOf t a) n) := by
  obtain ⟨e0, e1, e2⟩ := idx3 t
  unfold iblk
  rw [View.read_apply]
  show V m c main_arg5 _ = _
  rw [V_main_arg5]
  congr 1
  funext ax; apply Fin.ext
  have hz := z.isLt
  match ax with
  | ⟨0, _⟩ => show win0_3.index t (0 : Fin 3) * 1 + 1 * z.val = t.val / 8; omega
  | ⟨1, _⟩ => show win0_3.index t (1 : Fin 3) * 64 + 1 * a.val = 64 * (t.val % 8) + a.val; omega
  | ⟨2, _⟩ => show win0_3.index t (2 : Fin 3) * 64 + 1 * n.val = n.val; omega
theorem blk4 (c : Dev nD) (t : Fin cfg0.N) (z : Fin 1) (k : Fin 512) (d : Fin 256) :
    (iblk m c 4 t : FVec Ideal S1x512x256 .bf16) (ix3 z k d) = m ((c : Thread nD τ).loc main_arg0) (ix3 (bOf t) k d) := by
  obtain ⟨e0, e1, e2⟩ := idx4 t
  unfold iblk
  rw [View.read_apply]
  show V m c main_v0 _ = _
  rw [V_main_v0]
  congr 1
  funext ax; apply Fin.ext
  have hz := z.isLt
  match ax with
  | ⟨0, _⟩ => show win0_4.index t (0 : Fin 3) * 1 + 1 * z.val = t.val / 8; omega
  | ⟨1, _⟩ => show win0_4.index t (1 : Fin 3) * 512 + 1 * k.val = k.val; omega
  | ⟨2, _⟩ => show win0_4.index t (2 : Fin 3) * 256 + 1 * d.val = d.val; omega
theorem blk5 (c : Dev nD) (t : Fin cfg0.N) (z : Fin 1) (a : Fin 64) (n : Fin 128) :
    (iblk m c 5 t : FVec Ideal S1x64x128 .bf16) (ix3 z a n) = m ((c : Thread nD τ).loc main_arg3) (ix3 (bOf t) (rowOf t a) n) := by
  obtain ⟨e0, e1, e2⟩ := idx5 t
  unfold iblk
  rw [View.read_apply]
  show V m c main_v2 _ = _
  rw [V_main_v2]
  congr 1
  funext ax; apply Fin.ext
  have hz := z.isLt
  match ax with
  | ⟨0, _⟩ => show win0_5.index t (0 : Fin 3) * 1 + 1 * z.val = t.val / 8; omega
  | ⟨1, _⟩ => show win0_5.index t (1 : Fin 3) * 64 + 1 * a.val = 64 * (t.val % 8) + a.val; omega
  | ⟨2, _⟩ => show win0_5.index t (2 : Fin 3) * 128 + 1 * n.val = n.val; omega
theorem blk6 (c : Dev nD) (t : Fin cfg0.N) (p : Fin 256) (q : Fin 256) :
    (iblk m c 6 t : FVec Ideal S256x256 .bf16) (ix2 p q) = m ((c : Thread nD τ).loc main_arg6) (ix2 p q) := by
  obtain ⟨e0, e1⟩ := (idxW t).1
  unfold iblk
  rw [View.read_apply]
  show V m c main_v3 _ = _
  rw [V_main_v3]
  congr 1
  funext ax; apply Fin.ext
  match ax with
  | ⟨0, _⟩ => show win0_6.index t (0 : Fin 2) * 256 + 1 * p.val = p.val; omega
  | ⟨1, _⟩ => show win0_6.index t (1 : Fin 2) * 256 + 1 * q.val = q.val; omega
theorem blk7 (c : Dev nD) (t : Fin cfg0.N) (p : Fin 128) (q : Fin 256) :
    (iblk m c 7 t : FVec Ideal S128x256 .bf16) (ix2 p q) = m ((c : Thread nD τ).loc main_arg7) (ix2 p q) := by
  obtain ⟨e0, e1⟩ := (idxW t).2.1
  unfold iblk
  rw [View.read_apply]
  show V m c main_v4 _ = _
  rw [V_main_v4]
  congr 1
  funext ax; apply Fin.ext
  match ax with
  | ⟨0, _⟩ => show win0_7.index t (0 : Fin 2) * 128 + 1 * p.val = p.val; omega
  | ⟨1, _⟩ => show win0_7.index t (1 : Fin 2) * 256 + 1 * q.val = q.val; omega
theorem blk9 (c : Dev nD) (t : Fin cfg0.N) (p : Fin 256) (q : Fin 256) :
    (iblk m c 9 t : FVec Ideal S256x256 .bf16) (ix2 p q) = m ((c : Thread nD τ).loc main_arg9) (ix2 p q) := by
  obtain ⟨e0, e1⟩ := (idxW t).2.2.2.1
  unfold iblk
  rw [View.read_apply]
  show V m c main_v5 _ = _
  rw [V_main_v5]
  congr 1
  funext ax; apply Fin.ext
  match ax with
  | ⟨0, _⟩ => show win0_9.index t (0 : Fin 2) * 256 + 1 * p.val = p.val; omega
  | ⟨1, _⟩ => show win0_9.index t (1 : Fin 2) * 256 + 1 * q.val = q.val; omega
theorem blk11 (c : Dev nD) (t : Fin cfg0.N) (p : Fin 256) (q : Fin 256) :
    (iblk m c 11 t : FVec Ideal S256x256 .bf16) (ix2 p q) = m ((c : Thread nD τ).loc main_arg11) (ix2 p q) := by
  obtain ⟨e0, e1⟩ := (idxW t).2.2.2.2.2.1
  unfold iblk
  rw [View.read_apply]
  show V m c main_v6 _ = _
  rw [V_main_v6]
  congr 1
  funext ax; apply Fin.ext
  match ax with
  | ⟨0, _⟩ => show win0_11.index t (0 : Fin 2) * 256 + 1 * p.val = p.val; omega
  | ⟨1, _⟩ => show win0_11.index t (1 : Fin 2) * 256 + 1 * q.val = q.val; omega
theorem blk13 (c : Dev nD) (t : Fin cfg0.N) (p : Fin 256) (q : Fin 256) :
    (iblk m c 13 t : FVec Ideal S256x256 .bf16) (ix2 p q) = m ((c : Thread nD τ).loc main_arg13) (ix2 p q) := by
  obtain ⟨e0, e1⟩ := (idxW t).2.2.2.2.2.2.2.1
  unfold iblk
  rw [View.read_apply]
  show V m c main_v7 _ = _
  rw [V_main_v7]
  congr 1
  funext ax; apply Fin.ext
  match ax with
  | ⟨0, _⟩ => show win0_13.index t (0 : Fin 2) * 256 + 1 * p.val = p.val; omega
  | ⟨1, _⟩ => show win0_13.index t (1 : Fin 2) * 256 + 1 * q.val = q.val; omega
theorem blk15 (c : Dev nD) (t : Fin cfg0.N) (p : Fin 128) (q : Fin 256) :
    (iblk m c 15 t : FVec Ideal S128x256 .bf16) (ix2 p q) = m ((c : Thread nD τ).loc main_arg15) (ix2 p q) := by
  obtain ⟨e0, e1⟩ := (idxW t).2.2.2.2.2.2.2.2.2
  unfold iblk
  rw [View.read_apply]
  show V m c main_v8 _ = _
  rw [V_main_v8]
  congr 1
  funext ax; apply Fin.ext
  match ax with
  | ⟨0, _⟩ => show win0_15.index t (0 : Fin 2) * 128 + 1 * p.val = p.val; omega
  | ⟨1, _⟩ => show win0_15.index t (1 : Fin 2) * 256 + 1 * q.val = q.val; omega
theorem blk8 (c : Dev nD) (t : Fin cfg0.N) (z : Fin 1) (f : Fin 256) :
    (iblk m c 8 t : FVec Ideal S1x256 .f32) (ix2 z f) = m ((c : Thread nD τ).loc main_arg8) (ix1 f) := by
  obtain ⟨e0, e1⟩ := (idxW t).2.2.1
  unfold iblk
  rw [View.read_apply]
  show V m c main_v9 _ = _
  refine Eq.trans ?_ (V_main_v9 m c z f)
  congr 1
  funext ax; apply Fin.ext
  have hz := z.isLt
  match ax with
  | ⟨0, _⟩ => show win0_8.index t (0 : Fin 2) * 1 + 1 * z.val = z.val; omega
  | ⟨1, _⟩ => show win0_8.index t (1 : Fin 2) * 256 + 1 * f.val = f.val; omega
theorem blk10 (c : Dev nD) (t : Fin cfg0.N) (z : Fin 1) (f : Fin 256) :
    (iblk m c 10 t : FVec Ideal S1x256 .f32) (ix2 z f) = m ((c : Thread nD τ).loc main_arg10) (ix1 f) := by
  obtain ⟨e0, e1⟩ := (idxW t).2.2.2.2.1
  unfold iblk
  rw [View.read_apply]
  show V m c main_v10 _ = _
  refine Eq.trans ?_ (V_main_v10 m c z f)
  congr 1
  funext ax; apply Fin.ext
  have hz := z.isLt
  match ax with
  | ⟨0, _⟩ => show win0_10.index t (0 : Fin 2) * 1 + 1 * z.val = z.val; omega
  | ⟨1, _⟩ => show win0_10.index t (1 : Fin 2) * 256 + 1 * f.val = f.val; omega
theorem blk12 (c : Dev nD) (t : Fin cfg0.N) (z : Fin 1) (f : Fin 256) :
    (iblk m c 12 t : FVec Ideal S1x256 .f32) (ix2 z f) = m ((c : Thread nD τ).loc main_arg12) (ix1 f) := by
  obtain ⟨e0, e1⟩ := (idxW t).2.2.2.2.2.2.1
  unfold iblk
  rw [View.read_apply]
  show V m c main_v11 _ = _
  refine Eq.trans ?_ (V_main_v11 m c z f)
  congr 1
  funext ax; apply Fin.ext
  have hz := z.isLt
  match ax with
  | ⟨0, _⟩ => show win0_12.index t (0 : Fin 2) * 1 + 1 * z.val = z.val; omega
  | ⟨1, _⟩ => show win0_12.index t (1 : Fin 2) * 256 + 1 * f.val = f.val; omega
theorem blk14 (c : Dev nD) (t : Fin cfg0.N) (z : Fin 1) (f : Fin 256) :
    (iblk m c 14 t : FVec Ideal S1x256 .f32) (ix2 z f) = m ((c : Thread nD τ).loc main_arg14) (ix1 f) := by
  obtain ⟨e0, e1⟩ := (idxW t).2.2.2.2.2.2.2.2.1
  unfold iblk
  rw [View.read_apply]
  show V m c main_v12 _ = _
  refine Eq.trans ?_ (V_main_v12 m c z f)
  congr 1
  funext ax; apply Fin.ext
  have hz := z.isLt
  match ax with
  | ⟨0, _⟩ => show win0_14.index t (0 : Fin 2) * 1 + 1 * z.val = z.val; omega
  | ⟨1, _⟩ => show win0_14.index t (1 : Fin 2) * 256 + 1 * f.val = f.val; omega

/-! ## What the body stores -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The stored block, from blocks that hold batch member b's data for the 64 atoms 64 q … 64 q + 63 (and all of the
    member's x, and the weights): the specification's result on those atoms. -/
theorem block_value (A : Args) (b : Fin 8) (row : Fin 64 → Fin 512)
    (x0 : FVec Ideal S1x64x64x128 .bf16) (x1 : FVec Ideal S1x64x64 .f32) (x2 : FVec Ideal S1x64x64 .f32) (x3 : IVec S1x64x64 32)
    (x4 : FVec Ideal S1x512x256 .bf16) (x5 : FVec Ideal S1x64x128 .bf16) (x6 : FVec Ideal S256x256 .bf16) (x7 : FVec Ideal S128x256 .bf16)
    (x8 : FVec Ideal S1x256 .f32) (x9 : FVec Ideal S256x256 .bf16) (x10 : FVec Ideal S1x256 .f32) (x11 : FVec Ideal S256x256 .bf16)
    (x12 : FVec Ideal S1x256 .f32) (x13 : FVec Ideal S256x256 .bf16) (x14 : FVec Ideal S1x256 .f32) (x15 : FVec Ideal S128x256 .bf16)
    (h0 : ∀ (z : Fin 1) (a n : Fin 64) (s : Fin 128), x0 (ix4 z a n s) = A.f (ix4 b (row a) n s))
    (h1 : ∀ (z : Fin 1) (a n : Fin 64), x1 (ix3 z a n) = A.r (ix3 b (row a) n))
    (h2 : ∀ (z : Fin 1) (a n : Fin 64), x2 (ix3 z a n) = A.msk (ix3 b (row a) n))
    (h3 : ∀ (z : Fin 1) (a n : Fin 64), x3 (ix3 z a n) = A.nb (ix3 b (row a) n))
    (h4 : ∀ (z : Fin 1) (k : Fin 512) (d : Fin 256), x4 (ix3 z k d) = A.x (ix3 b k d))
    (h5 : ∀ (z : Fin 1) (a : Fin 64) (g : Fin 128), x5 (ix3 z a g) = A.g (ix3 b (row a) g))
    (h6 : ∀ (p q : Fin 256), x6 (ix2 p q) = A.Win (ix2 p q))
    (h7 : ∀ (p : Fin 128) (q : Fin 256), x7 (ix2 p q) = A.W1 (ix2 p q))
    (h8 : ∀ (z : Fin 1) (f : Fin 256), x8 (ix2 z f) = A.b1 (ix1 f))
    (h9 : ∀ (p q : Fin 256), x9 (ix2 p q) = A.W2 (ix2 p q))
    (h10 : ∀ (z : Fin 1) (f : Fin 256), x10 (ix2 z f) = A.b2 (ix1 f))
    (h11 : ∀ (p q : Fin 256), x11 (ix2 p q) = A.Wf (ix2 p q))
    (h12 : ∀ (z : Fin 1) (f : Fin 256), x12 (ix2 z f) = A.bf (ix1 f))
    (h13 : ∀ (p q : Fin 256), x13 (ix2 p q) = A.Wd (ix2 p q))
    (h14 : ∀ (z : Fin 1) (f : Fin 256), x14 (ix2 z f) = A.bd (ix1 f))
    (h15 : ∀ (p : Fin 128) (q : Fin 256), x15 (ix2 p q) = A.Wa (ix2 p q))
    (z : Fin 1) (a : Fin 64) (d : Fin 256) :
    out0_16 (F := Ideal) x0 x1 x2 x3 x4 x5 x6 x7 x8 x9 x10 x11 x12 x13 x14 x15 (ix3 z a d) = outAt A b (row a) d := by
  obtain rfl : z = 0 := Subsingleton.elim _ _
  unfold out0_16
  rw [View.canon_unit_zero hz3]
  simp only [View.ld_unit_zero (S := S1x64x64x128) hz4, View.ld_unit_zero (S := S128x256) hz2, View.ld_unit_zero (S := S1x256) hz2,
    View.ld_unit_zero (S := S256x256) hz2, View.ld_unit_zero (S := S1x64x64) hz3, View.ld_unit_zero (S := S1x512x256) hz3,
    View.ld_unit_zero (S := S1x64x128) hz3]
  rw [pay1_apply]
  simp only [pay4_apply, pay2_apply, pay3_apply, h0, h1, h2, h3, h4, h5, h6, h7, h8, h9, h10, h11, h12, h13, h14, h15]
  rfl

/-! ## From the blocks to the array -/

/-- What point t writes back is its block of the specification's result. -/
theorem flushed_eq (c : Dev nD) (t : Fin cfg0.N) :
    (dats m 0 c).flushed 16 t = ((cfg0.win 16).blk t).view.read (Elt Ideal) (out (args m c)) := by
  rw [Cert.KernelIdeal.Value.flushed16]
  obtain ⟨e0, e1, e2⟩ := idx16 t
  funext y
  obtain ⟨z, a, d, rfl⟩ : ∃ (z : Fin 1) (a : Fin 64) (d : Fin 256), (y : S1x64x256.Idx) = ix3 z a d := ⟨y 0, y 1, y 2, eq_ix3 y⟩
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix3 z a d)
    = out (args m c) (((cfg0.win 16).blk t).view.emb (ix3 z a d))
  have he : ((cfg0.win 16).blk t).view.emb (ix3 z a d) = ix3 (bOf t) (rowOf t a) d := by
    funext ax; apply Fin.ext
    have hz := z.isLt
    match ax with
    | ⟨0, _⟩ => show win0_16.index t (0 : Fin 3) * 1 + 1 * z.val = t.val / 8; omega
    | ⟨1, _⟩ => show win0_16.index t (1 : Fin 3) * 64 + 1 * a.val = 64 * (t.val % 8) + a.val; omega
    | ⟨2, _⟩ => show win0_16.index t (2 : Fin 3) * 256 + 1 * d.val = d.val; omega
  rw [he, out_ix3]
  exact block_value (args m c) (bOf t) (rowOf t) _ _ _ _ _ _ _ _ _ _ _ _ _ _ _ _
    (blk0 m c t) (blk1 m c t) (blk2 m c t) (blk3 m c t) (blk4 m c t) (blk5 m c t) (blk6 m c t) (blk7 m c t) (blk8 m c t) (blk9 m c t)
    (blk10 m c t) (blk11 m c t) (blk12 m c t) (blk13 m c t) (blk14 m c t) (blk15 m c t) z a d

/-- An index of the result is in point t's block iff each coordinate is in the block's range. -/
theorem mem_blk16 (t : Fin cfg0.N) (i : S8x512x256.Idx) :
    i ∈ ((cfg0.win 16).blk t).view.set ↔ ∀ a : Fin 3, win0_16.index t a * S1x64x256.size a ≤ (i a).val ∧ (i a).val < win0_16.index t a * S1x64x256.size a + S1x64x256.size a := by
  show i ∈ ((View.whole main_v13).slice (win0_16.rect t)).set ↔ _
  rw [View.set_slice_whole, Rect.mem_set_unit]
  exact Iff.rfl

/-- Every index (b, r, d) of the result lies in the block of the point 8 b + r / 64. -/
theorem cover (i : S8x512x256.Idx) : ∃ t : Fin cfg0.N, (cfg0.win 16).flush t = true ∧ i ∈ ((cfg0.win 16).blk t).view.set := by
  have h0 : (i 0).val < 8 := (i 0).isLt
  have h1 : (i 1).val < 512 := (i 1).isLt
  have h2 : (i 2).val < 256 := (i 2).isLt
  have hN : (i 0).val * 8 + (i 1).val / 64 < cfg0.N := by rw [show cfg0.N = 64 from N_0]; omega
  refine ⟨⟨(i 0).val * 8 + (i 1).val / 64, hN⟩, flush0_16 _, ?_⟩
  rw [mem_blk16]
  obtain ⟨e0, e1, e2⟩ := idx16 ⟨(i 0).val * 8 + (i 1).val / 64, hN⟩
  intro ax
  match ax with
  | ⟨0, _⟩ =>
    show win0_16.index _ (0 : Fin 3) * 1 ≤ (i 0).val ∧ (i 0).val < win0_16.index _ (0 : Fin 3) * 1 + 1
    rw [e0]; show ((i 0).val * 8 + (i 1).val / 64) / 8 * 1 ≤ (i 0).val ∧ (i 0).val < ((i 0).val * 8 + (i 1).val / 64) / 8 * 1 + 1; omega
  | ⟨1, _⟩ =>
    show win0_16.index _ (1 : Fin 3) * 64 ≤ (i 1).val ∧ (i 1).val < win0_16.index _ (1 : Fin 3) * 64 + 64
    rw [e1]; show ((i 0).val * 8 + (i 1).val / 64) % 8 * 64 ≤ (i 1).val ∧ (i 1).val < ((i 0).val * 8 + (i 1).val / 64) % 8 * 64 + 64; omega
  | ⟨2, _⟩ =>
    show win0_16.index _ (2 : Fin 3) * 256 ≤ (i 2).val ∧ (i 2).val < win0_16.index _ (2 : Fin 3) * 256 + 256
    rw [e2]; omega

/-- The result array after the run is the specification's. -/
theorem final (c : Dev nD) : (dats m 0 c).arrAt 16 cfg0.N = out (args m c) :=
  (dats m 0 c).arrAt_eq_of_cover 16 (out (args m c)) (fun t _ => flushed_eq m c t) cover

/-- The kernel program's run: it ends with the result array the specification's, the arguments unchanged. -/
theorem run : θ_run defs (onTc (τ := τ) (main (F := Ideal))) ⟨m, fun _ => 0, ρ⟩ fun r => ∀ c : Dev nD,
      r.2.mem ((c : Thread nD τ).loc main_v13) = out (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (Cert.KernelIdeal.Value.run_blocks m ρ)

end CFConv.Ker

end
-- ==== Proof.RefFilter.lean ====
/- The reference's filter, cut off: at (b, a, n, g) the reference's value before the gather is multiplied in is
   filt · cutoff. -/
import proofs.«407454_j2774548873990_1_alg».proof.Proof.RefRead
import proofs.«407454_j2774548873990_1_alg».proof.Proof.Spec

noncomputable section

namespace CFConv.Ref

open Idealize.ShloMosaic Idealize.ShloMosaic.ValueIdx CFConv
open Cert.ReferenceIdeal Cert.ReferenceIdeal.Read

/-! ## The hidden layer -/

/-- The hidden layer before its activation: the rows of f_ij against the columns of W1, plus the bias b1. -/
theorem pre_eq (A : Args) (b : Fin 8) (a : Fin 512) (n : Fin 64) (f : Fin 256) :
    val_main_v3 (F := Ideal) A.f A.W1 A.b1 (ix4 b a n f)
      = (∑ s : Fin 128, A.f (ix4 b a n s) * A.W1 (ix2 s f)) + A.b1 (ix1 f) := by
  have el : ∀ k : Fin 128, lidx_main_v0 (ix4 b a n f) k = ix4 b a n k := fun k => funext fun d => Fin.ext (by
    match d with
    | ⟨0, _⟩ => rfl
    | ⟨1, _⟩ => rfl
    | ⟨2, _⟩ => rfl
    | ⟨3, _⟩ => rfl)
  have er : ∀ k : Fin 128, ridx_main_v0 (ix4 b a n f) k = ix2 k f := fun k => funext fun d => Fin.ext (by
    match d with
    | ⟨0, _⟩ => rfl
    | ⟨1, _⟩ => rfl)
  have eb : idx_main_v1 (idx_main_v2 (ix4 b a n f)) = ix1 f := funext fun d => Fin.ext (by
    match d with
    | ⟨0, _⟩ => rfl)
  rw [val_main_v3_apply, val_main_v0_apply, val_main_v2_apply, val_main_v1_apply, eb, Ideal.addf_def]
  refine congrArg (fun z : EReal => z + A.b1 (ix1 f)) ?_
  refine Finset.sum_congr rfl fun k _ => ?_
  rw [el k, er k]

/-- The reference's softplus call at a point is the softplus of its argument: its constant is the zero word, its guard
    compares a number with itself, and its absolute value is a maximum. -/
theorem call_softplus (x2 : (⟨S8x512x64x128, .f32⟩ : BufTy).Contents (Elt Ideal))
    (x7 : (⟨S128x256, .f32⟩ : BufTy).Contents (Elt Ideal)) (x8 : (⟨S256, .f32⟩ : BufTy).Contents (Elt Ideal))
    (i : S8x512x64x256.Idx) :
    val_main_v4 (F := Ideal) x2 x7 x8 i = softplus (val_main_v3 (F := Ideal) x2 x7 x8 i) := by
  have hz : ∀ j : S_.Idx, val_main_call0_cst (F := Ideal) j = (0 : EReal) := fun j => Ideal.ofBits_zero_f32
  rw [val_main_v4_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply]
  simp only [hz]
  exact softplus_ref _

/-- The hidden layer: the shifted softplus of the pre-activation, the shift the word of log 2. -/
theorem hid_eq (A : Args) (b : Fin 8) (a : Fin 512) (n : Fin 64) (f : Fin 256) :
    val_main_v6 (F := Ideal) A.f A.W1 A.b1 (ix4 b a n f) = hid A b a n f := by
  rw [val_main_v6_apply, call_softplus, pre_eq, val_main_v5_apply, val_main_cst_apply]
  rfl

/-! ## The filter -/

/-- The filter: the hidden layer against the columns of W2, plus the bias b2. -/
theorem filt_eq (A : Args) (b : Fin 8) (a : Fin 512) (n : Fin 64) (g : Fin 256) :
    val_main_v10 (F := Ideal) A.f A.W1 A.b1 A.W2 A.b2 (ix4 b a n g) = filt A b a n g := by
  have el : ∀ k : Fin 256, lidx_main_v7 (ix4 b a n g) k = ix4 b a n k := fun k => funext fun d => Fin.ext (by
    match d with
    | ⟨0, _⟩ => rfl
    | ⟨1, _⟩ => rfl
    | ⟨2, _⟩ => rfl
    | ⟨3, _⟩ => rfl)
  have er : ∀ k : Fin 256, ridx_main_v7 (ix4 b a n g) k = ix2 k g := fun k => funext fun d => Fin.ext (by
    match d with
    | ⟨0, _⟩ => rfl
    | ⟨1, _⟩ => rfl)
  have eb : idx_main_v8 (idx_main_v9 (ix4 b a n g)) = ix1 g := funext fun d => Fin.ext (by
    match d with
    | ⟨0, _⟩ => rfl)
  rw [val_main_v10_apply, val_main_v7_apply, val_main_v9_apply, val_main_v8_apply, eb, Ideal.addf_def]
  unfold filt
  refine congrArg (fun z : EReal => z + A.b2 (ix1 g)) ?_
  refine Finset.sum_congr rfl fun k _ => ?_
  rw [el k, er k, hid_eq]

/-! ## The cutoff -/

/-- The cutoff: the comparison of the distance with the word of 5.0, read as the number 0 or 1, whatever the last
    coordinate. -/
theorem cut_eq (A : Args) (b : Fin 8) (a : Fin 512) (n : Fin 64) (g : Fin 256) :
    val_main_v15 (F := Ideal) A.r (ix4 b a n g) = cutoff A b a n := by
  have e : idx_main_v14 (idx_main_v15 (ix4 b a n g)) = ix3 b a n := funext fun d => Fin.ext (by
    match d with
    | ⟨0, _⟩ => rfl
    | ⟨1, _⟩ => rfl
    | ⟨2, _⟩ => rfl)
  rw [val_main_v15_apply, val_main_v14_apply, val_main_v13_apply, val_main_v12_apply, val_main_v11_apply,
    val_main_cst_0_apply, e]
  exact ind_uitofp (Ideal.cmp .ole (A.r (ix3 b a n)) five)

/-! ## The product -/

theorem filt_cut (A : Args) (b : Fin 8) (a : Fin 512) (n : Fin 64) (g : Fin 256) :
    val_main_v16 (F := Ideal) A.r A.f A.W1 A.b1 A.W2 A.b2 (ix4 b a n g) = filt A b a n g * cutoff A b a n := by
  rw [val_main_v16_apply, filt_eq, cut_eq]
  rfl

end CFConv.Ref

end
-- ==== Proof.LibIndexRange.lean ====
/-
  Two general facts a proof meets when an integer input indexes an array.

  Words: a 32-bit word `w` with `0 ≤ w` and `w < n` as signed comparisons (`n` below 2³¹) has a signed value in
  `[0, n)`; for such a word the signed test `w < 0` fails, `w ≤ n - 1` holds, and the value read signed and clamped
  into `[0, n - 1]` is the value itself.

  Conjunctions: a `reduce` by `and` of one-bit words, started at 1, over an operand that is 1 everywhere is 1 at every
  result index (the converse of "a conjunction that is 1 met only 1s").
-/
import Idealize.ShloMosaic.Lib.ReduceAll
import Idealize.ShloMosaic.Lib.StableHlo.Predicate

namespace Idealize.ShloMosaic.IndexRange

open Idealize.ShloMosaic Idealize.ShloMosaic.StableHlo.Predicate

/-! ## Words in a range -/

/-- The signed value of a word that passes `0 ≤ w` and `w < n`. -/
theorem toInt_mem_of_cmpi {w : BitVec 32} (n : Nat) (hn : n < 2 ^ 31)
    (h0 : IntOp.cmpi .sge w 0#32 = 1#1) (h1 : IntOp.cmpi .slt w (BitVec.ofNat 32 n) = 1#1) :
    0 ≤ w.toInt ∧ w.toInt < n := by
  unfold IntOp.cmpi at h0 h1
  rw [ofBool_eq_one_iff] at h0 h1
  simp only [BitVec.sle, BitVec.slt, decide_eq_true_eq] at h0 h1
  rw [toInt_ofNat_small n hn] at h1
  exact ⟨by simpa using h0, h1⟩

/-- A word with a non-negative signed value fails the signed test `w < 0`. -/
theorem slt_zero_eq_zero {w : BitVec 32} (h : 0 ≤ w.toInt) : IntOp.cmpi .slt w 0#32 = 0#1 := by
  unfold IntOp.cmpi
  have : w.slt 0#32 = false := by
    simp only [BitVec.slt, decide_eq_false_iff_not, not_lt]
    simpa using h
  rw [this]; rfl

/-- A word with a non-negative signed value passes the signed test `0 ≤ w`. -/
theorem sge_zero_eq_one {w : BitVec 32} (h : 0 ≤ w.toInt) : IntOp.cmpi .sge w 0#32 = 1#1 := by
  unfold IntOp.cmpi
  rw [ofBool_eq_one_iff]
  simp only [BitVec.sle, decide_eq_true_eq]
  simpa using h

/-- For such a word the select "`w + n` if `w < 0`, else `w`" (an index counted from the end made absolute) is `w`. -/
theorem select_wrap_eq {w : BitVec 32} (n : BitVec 32) (h : 0 ≤ w.toInt) :
    Scalar.select (IntOp.cmpi .slt w 0#32) (IntOp.addi w n) w = w := by
  rw [slt_zero_eq_zero h]
  exact if_neg (by decide)

/-- A word whose signed value is at most `k` passes the signed test `w ≤ k`. -/
theorem sle_eq_one {w : BitVec 32} (k : Nat) (hk : k < 2 ^ 31) (h : w.toInt ≤ k) :
    IntOp.cmpi .sle w (BitVec.ofNat 32 k) = 1#1 := by
  unfold IntOp.cmpi
  rw [ofBool_eq_one_iff]
  simp only [BitVec.sle, decide_eq_true_eq]
  rw [toInt_ofNat_small k hk]
  exact h

/-- Read signed and clamped into `[0, k]`, a word whose signed value lies there is its own value. -/
theorem clamp_toNat {w : BitVec 32} (k : Nat) (h0 : 0 ≤ w.toInt) (h1 : w.toInt ≤ k) :
    min w.toInt.toNat k = w.toInt.toNat := by
  omega

/-! ## A conjunction of ones -/

/-- A left fold by `and` from 1 over one-bit words that are all 1 is 1. -/
theorem foldl_andi_of_forall {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_of_forall f l fun n hn => h n (List.mem_cons_of_mem _ hn)

/-- A `reduce` by `and` from an initial 1 over an operand that is 1 everywhere is 1 at every result index. -/
theorem reduce_andi_of_forall {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_of_forall x _ fun n _ => hx n

end Idealize.ShloMosaic.IndexRange
-- ==== Proof.RefGather.lean ====
/- The reference's gathered rows: with every neighbour index in [0, 512), take_along_axis hands slot (b, a, n) the
   projected row its index names — the one-hot sum of the specification. -/
import proofs.«407454_j2774548873990_1_alg».proof.Proof.RefRead
import proofs.«407454_j2774548873990_1_alg».proof.Proof.Spec
import proofs.«407454_j2774548873990_1_alg».proof.Proof.LibIndexRange

noncomputable section

namespace CFConv.Ref

open Idealize.ShloMosaic Idealize.ShloMosaic.ValueIdx CFConv
open Cert.ReferenceIdeal Cert.ReferenceIdeal.Read

/-! ## The gather at an index

The gather's operand is [8, 512, 256], its start indices [8, 32768, 1], its result [8, 32768, 256]. Axis 0 of the
operand is a batching axis paired with axis 0 of the start indices, axis 1 is the collapsed axis the one-component
start index names, axis 2 is taken whole (slice size 256). So result element (b, j, f) is the operand's element
(b, c, f), c the start index at (b, j, 0) read signed and clamped into [0, 511]. One lemma per operand axis. -/

/-- Operand axis 0 (batching): the result's batch coordinate on axis 0. -/
theorem gather_axis0 (idx : IVec S8x32768x1 32) (b : Fin 8) (j : Fin 32768) (f : Fin 256) :
    gather_S8x512x256_S8x32768x1_S8x32768x256_2_1_0_0_1_2_11256.start (ix3 b j f) idx 0 + gather_S8x512x256_S8x32768x1_S8x32768x256_2_1_0_0_1_2_11256.batchCoord (ix3 b j f) 0 + gather_S8x512x256_S8x32768x1_S8x32768x256_2_1_0_0_1_2_11256.offCoord (ix3 b j f) 0 = b.val := by
  rw [GatherDims.start_batching gather_S8x512x256_S8x32768x1_S8x32768x256_2_1_0_0_1_2_11256 (ix3 b j f) idx 0 (by decide),
    GatherDims.offCoord_eq_zero gather_S8x512x256_S8x32768x1_S8x32768x256_2_1_0_0_1_2_11256 (ix3 b j f) 0
      (fun h => ((GatherDims.mem_sKept gather_S8x512x256_S8x32768x1_S8x32768x256_2_1_0_0_1_2_11256 0).mp h).2 (by decide)),
    Nat.zero_add, Nat.add_zero]
  unfold GatherDims.batchCoord
  rw [dif_pos (show (0 : Fin S8x512x256.rank) ∈ gather_S8x512x256_S8x32768x1_S8x32768x256_2_1_0_0_1_2_11256.operandBatchingDims by decide)]
  rfl

/-- Operand axis 1 (collapsed, named by the start index): the start index at (b, j, 0), signed, clamped into [0, 511]. -/
theorem gather_axis1 (idx : IVec S8x32768x1 32) (b : Fin 8) (j : Fin 32768) (f : Fin 256) :
    gather_S8x512x256_S8x32768x1_S8x32768x256_2_1_0_0_1_2_11256.start (ix3 b j f) idx 1 + gather_S8x512x256_S8x32768x1_S8x32768x256_2_1_0_0_1_2_11256.batchCoord (ix3 b j f) 1 + gather_S8x512x256_S8x32768x1_S8x32768x256_2_1_0_0_1_2_11256.offCoord (ix3 b j f) 1
      = min (idx (ix3 b j (0 : Fin 1))).toInt.toNat 511 := by
  rw [GatherDims.batchCoord_eq_zero gather_S8x512x256_S8x32768x1_S8x32768x256_2_1_0_0_1_2_11256 (ix3 b j f) 1 (by decide),
    GatherDims.offCoord_eq_zero gather_S8x512x256_S8x32768x1_S8x32768x256_2_1_0_0_1_2_11256 (ix3 b j f) 1
      (fun h => ((GatherDims.mem_sKept gather_S8x512x256_S8x32768x1_S8x32768x256_2_1_0_0_1_2_11256 1).mp h).1 (by decide))]
  simp only [Nat.add_zero]
  unfold GatherDims.start
  rw [dif_pos (show (1 : Fin S8x512x256.rank) ∈ gather_S8x512x256_S8x32768x1_S8x32768x256_2_1_0_0_1_2_11256.startIndexMap by decide)]
  have hsi : gather_S8x512x256_S8x32768x1_S8x32768x256_2_1_0_0_1_2_11256.siIdx (ix3 b j f)
      ⟨List.idxOf (1 : Fin S8x512x256.rank) gather_S8x512x256_S8x32768x1_S8x32768x256_2_1_0_0_1_2_11256.startIndexMap,
        List.idxOf_lt_length_iff.2 (by decide)⟩ = ix3 b j (0 : Fin 1) := by
    funext c; refine Fin.ext ?_
    match c with
    | ⟨0, _⟩ => rfl
    | ⟨1, _⟩ => rfl
    | ⟨2, _⟩ => rfl
  rw [hsi]
  rfl

/-- Operand axis 2 (the offset axis, taken whole): the result's coordinate on axis 2. -/
theorem gather_axis2 (idx : IVec S8x32768x1 32) (b : Fin 8) (j : Fin 32768) (f : Fin 256) :
    gather_S8x512x256_S8x32768x1_S8x32768x256_2_1_0_0_1_2_11256.start (ix3 b j f) idx 2 + gather_S8x512x256_S8x32768x1_S8x32768x256_2_1_0_0_1_2_11256.batchCoord (ix3 b j f) 2 + gather_S8x512x256_S8x32768x1_S8x32768x256_2_1_0_0_1_2_11256.offCoord (ix3 b j f) 2 = f.val := by
  rw [GatherDims.batchCoord_eq_zero gather_S8x512x256_S8x32768x1_S8x32768x256_2_1_0_0_1_2_11256 (ix3 b j f) 2 (by decide), Nat.add_zero]
  unfold GatherDims.start
  rw [dif_neg (show ¬(2 : Fin S8x512x256.rank) ∈ gather_S8x512x256_S8x32768x1_S8x32768x256_2_1_0_0_1_2_11256.startIndexMap by decide), Nat.zero_add]
  unfold GatherDims.offCoord
  rw [dif_pos (show (2 : Fin S8x512x256.rank) ∈ gather_S8x512x256_S8x32768x1_S8x32768x256_2_1_0_0_1_2_11256.sKept from
    (GatherDims.mem_sKept gather_S8x512x256_S8x32768x1_S8x32768x256_2_1_0_0_1_2_11256 2).mpr ⟨by decide, by decide⟩)]
  rfl

/-- The gather read at (b, j, f): the operand's row named by the clamped start index, same batch member, same column. -/
theorem gather_row {α : Type} (x : S8x512x256.Idx → α) (idx : IVec S8x32768x1 32)
    (b : Fin 8) (j : Fin 32768) (f : Fin 256) :
    Host.gather gather_S8x512x256_S8x32768x1_S8x32768x256_2_1_0_0_1_2_11256 x idx (ix3 b j f)
      = x (ix3 b (⟨min (idx (ix3 b j (0 : Fin 1))).toInt.toNat 511, by omega⟩ : Fin 512) f) := by
  unfold Host.gather
  congr 1
  funext a
  refine Fin.ext ?_
  show gather_S8x512x256_S8x32768x1_S8x32768x256_2_1_0_0_1_2_11256.start (ix3 b j f) idx a + gather_S8x512x256_S8x32768x1_S8x32768x256_2_1_0_0_1_2_11256.batchCoord (ix3 b j f) a + gather_S8x512x256_S8x32768x1_S8x32768x256_2_1_0_0_1_2_11256.offCoord (ix3 b j f) a = _
  match a with
  | ⟨0, _⟩ => exact gather_axis0 idx b j f
  | ⟨1, _⟩ => exact gather_axis1 idx b j f
  | ⟨2, _⟩ => exact gather_axis2 idx b j f

/-! ## The index words: in range, so the wrap is the identity and the range test passes -/

/-- The wrapped index "w + 512 if w < 0 else w" of a non-negative word is the word. -/
theorem wrap_eq (nb : S8x512x64.Idx → BitVec 32) (i : S8x32768x1.Idx) (h0 : 0 ≤ (nb (idx_main_v18 i)).toInt) :
    val_main_call1_v4 (F := Ideal) nb i = nb (idx_main_v18 i) := by
  rw [val_main_call1_v4_apply, val_main_call1_v1_apply, val_main_call1_v3_apply, val_main_v18_apply,
    val_main_call1_v0_apply, val_main_call1_c_apply, val_main_call1_v2_apply, val_main_call1_c_0_apply]
  exact IndexRange.select_wrap_eq _ h0

/-- The range test 0 ≤ w' ≤ 511 of the wrapped index passes at every slot. -/
theorem range_one (nb : S8x512x64.Idx → BitVec 32) (i : S8x32768x1.Idx)
    (h0 : 0 ≤ (nb (idx_main_v18 i)).toInt) (h1 : (nb (idx_main_v18 i)).toInt < 512) :
    val_main_call1_v10 (F := Ideal) nb i = 1#1 := by
  have h9 : IntOp.cmpi .sle (nb (idx_main_v18 i)) (BitVec.ofNat 32 511) = 1#1 :=
    IndexRange.sle_eq_one 511 (by decide) (by omega)
  rw [val_main_call1_v10_apply, val_main_call1_v6_apply, val_main_call1_v9_apply, wrap_eq nb i h0,
    val_main_call1_v5_apply, val_main_call1_c_2_apply, val_main_call1_v8_apply, val_main_call1_v7_apply,
    val_main_call1_c_1_apply, IndexRange.sge_zero_eq_one h0, h9]
  decide

/-- So its conjunction over the last axis is 1 everywhere, and the select keeps the gathered value. -/
theorem mask_one (nb : S8x512x64.Idx → BitVec 32)
    (hr : ∀ k : S8x512x64.Idx, 0 ≤ (nb k).toInt ∧ (nb k).toInt < 512) (i : S8x32768x256.Idx) :
    val_main_call1_v13 (F := Ideal) nb i = 1#1 := by
  rw [val_main_call1_v13_apply]
  unfold val_main_call1_v11
  exact IndexRange.reduce_andi_of_forall _ _ _ _ rfl (fun k => range_one nb k (hr _).1 (hr _).2) _

/-! ## The two reshapes: slot j = 64·a + n of 32768 -/

theorem idx20_eq (b : Fin 8) (a : Fin 512) (n : Fin 64) (f : Fin 256) :
    idx_main_v20 (ix4 b a n f)
      = ix3 b (⟨a.val * 64 + n.val, by have := a.isLt; have := n.isLt; omega⟩ : Fin 32768) f := by
  have hb := b.isLt; have ha := a.isLt; have hn := n.isLt; have hf := f.isLt
  funext c; refine Fin.ext ?_
  match c with
  | ⟨0, _⟩ =>
    show (((b.val * 512 + a.val) * 64 + n.val) * 256 + f.val) / 8388608 = b.val
    omega
  | ⟨1, _⟩ =>
    show (((b.val * 512 + a.val) * 64 + n.val) * 256 + f.val) / 256 % 32768 = a.val * 64 + n.val
    omega
  | ⟨2, _⟩ =>
    show (((b.val * 512 + a.val) * 64 + n.val) * 256 + f.val) % 256 = f.val
    omega

theorem idx18_eq (b : Fin 8) (a : Fin 512) (n : Fin 64) :
    idx_main_v18 (ix3 b (⟨a.val * 64 + n.val, by have := a.isLt; have := n.isLt; omega⟩ : Fin 32768) (0 : Fin 1))
      = ix3 b a n := by
  have hb := b.isLt; have ha := a.isLt; have hn := n.isLt
  funext c; refine Fin.ext ?_
  match c with
  | ⟨0, _⟩ =>
    show ((b.val * 32768 + (a.val * 64 + n.val)) * 1 + 0) / 32768 = b.val
    omega
  | ⟨1, _⟩ =>
    show ((b.val * 32768 + (a.val * 64 + n.val)) * 1 + 0) / 64 % 512 = a.val
    omega
  | ⟨2, _⟩ =>
    show ((b.val * 32768 + (a.val * 64 + n.val)) * 1 + 0) % 64 = n.val
    omega

/-! ## The projected atoms are the specification's xf -/

theorem lidx17_eq (b : Fin 8) (k : Fin 512) (f d : Fin 256) : lidx_main_v17 (ix3 b k f) d = ix3 b k d := by
  funext c
  match c with
  | ⟨0, _⟩ => rfl
  | ⟨1, _⟩ => rfl
  | ⟨2, _⟩ => rfl

theorem ridx17_eq (b : Fin 8) (k : Fin 512) (f d : Fin 256) : ridx_main_v17 (ix3 b k f) d = ix2 d f := by
  funext c
  match c with
  | ⟨0, _⟩ => rfl
  | ⟨1, _⟩ => rfl

theorem proj_eq_xf (A : Args) (b : Fin 8) (k : Fin 512) (f : Fin 256) :
    val_main_v17 (F := Ideal) A.x A.Win (ix3 b k f) = xf A b k f := by
  rw [val_main_v17_apply]
  unfold xf
  refine Finset.sum_congr rfl fun d _ => ?_
  rw [lidx17_eq, ridx17_eq]

/-! ## The selected row -/

theorem take_row (A : Args)
    (hr : ∀ (b : Fin 8) (a : Fin 512) (n : Fin 64), 0 ≤ (A.nb (ix3 b a n)).toInt ∧ (A.nb (ix3 b a n)).toInt < 512)
    (b : Fin 8) (a : Fin 512) (n : Fin 64) (f : Fin 256) :
    val_main_v20 (F := Ideal) A.x A.nb A.Win (ix4 b a n f) = sel A b a n f := by
  have hr' : ∀ k : S8x512x64.Idx, 0 ≤ (A.nb k).toInt ∧ (A.nb k).toInt < 512 := fun k =>
    Eq.mpr (congrArg (fun x => 0 ≤ (A.nb x).toInt ∧ (A.nb x).toInt < 512) (eq_ix3 k)) (hr (k 0) (k 1) (k 2))
  obtain ⟨h0, h1⟩ := hr b a n
  rw [sel_eq A b a n f h0 h1, val_main_v20_apply, idx20_eq, val_main_v19_apply, mask_one A.nb hr', select_one]
  unfold val_main_call1_v12
  refine (gather_row _ _ b _ f).trans ?_
  refine Eq.trans (congrArg (val_main_v17 (F := Ideal) A.x A.Win) ?_)
    (proj_eq_xf A b ⟨(A.nb (ix3 b a n)).toInt.toNat, by omega⟩ f)
  funext c; refine Fin.ext ?_
  match c with
  | ⟨0, _⟩ => rfl
  | ⟨1, _⟩ =>
    show min (val_main_call1_v4 (F := Ideal) A.nb
      (ix3 b (⟨a.val * 64 + n.val, by have := a.isLt; have := n.isLt; omega⟩ : Fin 32768) (0 : Fin 1))).toInt.toNat 511
      = (A.nb (ix3 b a n)).toInt.toNat
    rw [wrap_eq A.nb _ (hr' _).1, idx18_eq]
    omega
  | ⟨2, _⟩ => rfl

end CFConv.Ref

end
-- ==== Proof.RefTail.lean ====
/- The reference from the masked product on: given its filter-times-cutoff and its gathered rows at every index, its
   result is the specification's. -/
import proofs.«407454_j2774548873990_1_alg».proof.Proof.RefRead
import proofs.«407454_j2774548873990_1_alg».proof.Proof.Spec

noncomputable section

namespace CFConv.Ref

open Idealize.ShloMosaic Idealize.ShloMosaic.ValueIdx CFConv
open Cert.ReferenceIdeal Cert.ReferenceIdeal.Read

/-! ## The stages' index maps at coordinates -/

/-- The mask is read at (b, a, n), whatever the feature. -/
theorem idx_mask (b : Fin 8) (a : Fin 512) (n : Fin 64) (f : Fin 256) :
    idx_main_v22 (idx_main_v23 (ix4 b a n f)) = ix3 b a n :=
  funext fun e => Fin.ext (by match e with | ⟨0, _⟩ => rfl | ⟨1, _⟩ => rfl | ⟨2, _⟩ => rfl)

/-- The sum over the neighbour axis reads (b, a, k, f). -/
theorem idx_red (b : Fin 8) (a : Fin 512) (f : Fin 256) (k : Fin 64) :
    idx_main_v25 (ix3 b a f) k = ix4 b a k f :=
  funext fun e => Fin.ext (by match e with | ⟨0, _⟩ => rfl | ⟨1, _⟩ => rfl | ⟨2, _⟩ => rfl | ⟨3, _⟩ => rfl)

theorem lidx_26 (b : Fin 8) (a : Fin 512) (e : Fin 256) (k : Fin 256) :
    lidx_main_v26 (ix3 b a e) k = ix3 b a k :=
  funext fun c => Fin.ext (by match c with | ⟨0, _⟩ => rfl | ⟨1, _⟩ => rfl | ⟨2, _⟩ => rfl)

theorem ridx_26 (b : Fin 8) (a : Fin 512) (e : Fin 256) (k : Fin 256) :
    ridx_main_v26 (ix3 b a e) k = ix2 k e :=
  funext fun c => Fin.ext (by match c with | ⟨0, _⟩ => rfl | ⟨1, _⟩ => rfl)

theorem idx_bias1 (b : Fin 8) (a : Fin 512) (e : Fin 256) :
    idx_main_v27 (idx_main_v28 (ix3 b a e)) = ix1 e :=
  funext fun c => Fin.ext (by match c with | ⟨0, _⟩ => rfl)

theorem lidx_30 (b : Fin 8) (a : Fin 512) (d : Fin 256) (k : Fin 256) :
    lidx_main_v30 (ix3 b a d) k = ix3 b a k :=
  funext fun c => Fin.ext (by match c with | ⟨0, _⟩ => rfl | ⟨1, _⟩ => rfl | ⟨2, _⟩ => rfl)

theorem ridx_30 (b : Fin 8) (a : Fin 512) (d : Fin 256) (k : Fin 256) :
    ridx_main_v30 (ix3 b a d) k = ix2 k d :=
  funext fun c => Fin.ext (by match c with | ⟨0, _⟩ => rfl | ⟨1, _⟩ => rfl)

theorem idx_bias2 (b : Fin 8) (a : Fin 512) (d : Fin 256) :
    idx_main_v31 (idx_main_v32 (ix3 b a d)) = ix1 d :=
  funext fun c => Fin.ext (by match c with | ⟨0, _⟩ => rfl)

theorem lidx_34 (b : Fin 8) (a : Fin 512) (d : Fin 256) (k : Fin 128) :
    lidx_main_v34 (ix3 b a d) k = ix3 b a k :=
  funext fun c => Fin.ext (by match c with | ⟨0, _⟩ => rfl | ⟨1, _⟩ => rfl | ⟨2, _⟩ => rfl)

theorem ridx_34 (b : Fin 8) (a : Fin 512) (d : Fin 256) (k : Fin 128) :
    ridx_main_v34 (ix3 b a d) k = ix2 k d :=
  funext fun c => Fin.ext (by match c with | ⟨0, _⟩ => rfl | ⟨1, _⟩ => rfl)

/-! ## The closing arithmetic on one number -/

/-- The reference's softplus with its zero constants, less log 2, is the shifted softplus. -/
theorem ssp_ref (t : EReal) :
    Scalar.select
        (Ideal.cmp .une (t - Ideal.ofBits .f32 0x00000000#32) (t - Ideal.ofBits .f32 0x00000000#32))
        (t + Ideal.ofBits .f32 0x00000000#32)
        (max t (Ideal.ofBits .f32 0x00000000#32)
          + Ideal.log1p (Ideal.exp (-(max (t - Ideal.ofBits .f32 0x00000000#32)
              (-(t - Ideal.ofBits .f32 0x00000000#32))))))
      - Ideal.ofBits .f32 0x3F317218#32 = ssp t := by
  rw [Ideal.ofBits_zero_f32, softplus_ref]
  rfl

/-! ## The stages at coordinates -/

/-- The angular term. -/
theorem v34_at (A : Args) (b : Fin 8) (a : Fin 512) (d : Fin 256) :
    val_main_v34 (F := Ideal) A.g A.Wa (ix3 b a d) = ang A b a d := by
  rw [val_main_v34_apply]
  unfold ang
  refine Finset.sum_congr rfl fun k _ => ?_
  rw [lidx_34, ridx_34]

section Stages

variable (A : Args)
  (hfilt : ∀ (b : Fin 8) (a : Fin 512) (n : Fin 64) (g : Fin 256),
    val_main_v16 (F := Ideal) A.r A.f A.W1 A.b1 A.W2 A.b2 (ix4 b a n g) = filt A b a n g * cutoff A b a n)
  (hsel : ∀ (b : Fin 8) (a : Fin 512) (n : Fin 64) (f : Fin 256),
    val_main_v20 (F := Ideal) A.x A.nb A.Win (ix4 b a n f) = sel A b a n f)

include hfilt hsel

/-- The masked product: (sel · (filt · cutoff)) · mask, regrouped. -/
theorem v24_at (b : Fin 8) (a : Fin 512) (n : Fin 64) (f : Fin 256) :
    val_main_v24 (F := Ideal) A.x A.r A.f A.msk A.nb A.Win A.W1 A.b1 A.W2 A.b2 (ix4 b a n f)
      = sel A b a n f * (filt A b a n f * (cutoff A b a n * A.msk (ix3 b a n))) := by
  rw [val_main_v24_apply, val_main_v21_apply, val_main_v23_apply, val_main_v22_apply, idx_mask, hsel, hfilt]
  simp only [Ideal.mulf_def]
  rw [mul_assoc, mul_assoc]

/-- The sum over the neighbour slots, from a zero initial value. -/
theorem v25_at (b : Fin 8) (a : Fin 512) (f : Fin 256) :
    val_main_v25 (F := Ideal) A.x A.r A.f A.msk A.nb A.Win A.W1 A.b1 A.W2 A.b2 (ix3 b a f) = agg A b a f := by
  rw [val_main_v25_apply, val_main_cst_1_apply, Ideal.ofBits_def, Ideal.ofBits_zero_f32, zero_add]
  unfold agg
  refine Finset.sum_congr rfl fun k _ => ?_
  rw [idx_red, v24_at A hfilt hsel]

/-- The first dense layer of the output network. -/
theorem v29_at (b : Fin 8) (a : Fin 512) (e : Fin 256) :
    val_main_v29 (F := Ideal) A.x A.r A.f A.msk A.nb A.Win A.W1 A.b1 A.W2 A.b2 A.Wf A.bf (ix3 b a e)
      = rad1 A b a e := by
  rw [val_main_v29_apply, val_main_v26_apply, val_main_v28_apply, val_main_v27_apply, idx_bias1]
  simp only [Ideal.addf_def]
  unfold rad1
  refine congrArg (fun s : EReal => s + A.bf (ix1 e)) (Finset.sum_congr rfl fun k _ => ?_)
  rw [lidx_26, ridx_26, v25_at A hfilt hsel]

/-- The second dense layer. -/
theorem v33_at (b : Fin 8) (a : Fin 512) (d : Fin 256) :
    val_main_v33 (F := Ideal) A.x A.r A.f A.msk A.nb A.Win A.W1 A.b1 A.W2 A.b2 A.Wf A.bf A.Wd A.bd (ix3 b a d)
      = rad2 A b a d := by
  rw [val_main_v33_apply, val_main_v30_apply, val_main_v32_apply, val_main_v31_apply, idx_bias2]
  simp only [Ideal.addf_def]
  unfold rad2
  refine congrArg (fun s : EReal => s + A.bd (ix1 d)) (Finset.sum_congr rfl fun k _ => ?_)
  rw [lidx_30, ridx_30, v29_at A hfilt hsel]

/-- The argument of the closing softplus. -/
theorem v35_at (b : Fin 8) (a : Fin 512) (d : Fin 256) :
    val_main_v35 (F := Ideal) A.x A.r A.f A.g A.msk A.nb A.Win A.W1 A.b1 A.W2 A.b2 A.Wf A.bf A.Wd A.bd A.Wa
        (ix3 b a d)
      = rad2 A b a d + ang A b a d := by
  rw [val_main_v35_apply, v33_at A hfilt hsel, v34_at A, Ideal.addf_def]

end Stages

theorem out_eq (A : Args)
    (hfilt : ∀ (b : Fin 8) (a : Fin 512) (n : Fin 64) (g : Fin 256),
      val_main_v16 (F := Ideal) A.r A.f A.W1 A.b1 A.W2 A.b2 (ix4 b a n g) = filt A b a n g * cutoff A b a n)
    (hsel : ∀ (b : Fin 8) (a : Fin 512) (n : Fin 64) (f : Fin 256),
      val_main_v20 (F := Ideal) A.x A.nb A.Win (ix4 b a n f) = sel A b a n f) :
    val_main_v38 (F := Ideal) A.x A.r A.f A.g A.msk A.nb A.Win A.W1 A.b1 A.W2 A.b2 A.Wf A.bf A.Wd A.bd A.Wa = out A := by
  funext i
  obtain ⟨b, a, d, rfl⟩ : ∃ (b : Fin 8) (a : Fin 512) (d : Fin 256), i = ix3 b a d :=
    ⟨i 0, i 1, i 2, eq_ix3 i⟩
  simp only [val_main_v38_apply, val_main_v36_apply, val_main_v37_apply, val_main_cst_2_apply,
    val_main_call2_v4_apply, val_main_call2_v6_apply, val_main_call2_v11_apply, val_main_call2_v1_apply,
    val_main_call2_v10_apply, val_main_call2_v9_apply, val_main_call2_v8_apply, val_main_call2_v7_apply,
    val_main_call2_v3_apply, val_main_call2_v0_apply, val_main_call2_v2_apply, val_main_call2_v5_apply,
    val_main_call2_cst_apply]
  rw [v35_at A hfilt hsel b a d, out_ix3]
  exact ssp_ref (rad2 A b a d + ang A b a d)

end CFConv.Ref

end
-- ==== Proof.RefBridge.lean ====
/-
  The reference's result is the specification's, when every neighbour index is in range: its filter-times-cutoff, its
  gathered rows, and everything after them, joined.
-/
import proofs.«407454_j2774548873990_1_alg».proof.Proof.RefFilter
import proofs.«407454_j2774548873990_1_alg».proof.Proof.RefGather
import proofs.«407454_j2774548873990_1_alg».proof.Proof.RefTail

noncomputable section

namespace CFConv.Ref

open Idealize.ShloMosaic Idealize.ShloMosaic.ValueIdx CFConv
open Cert.ReferenceIdeal Cert.ReferenceIdeal.Read

theorem ref_eq (A : Args)
    (hr : ∀ (b : Fin 8) (a : Fin 512) (n : Fin 64), 0 ≤ (A.nb (ix3 b a n)).toInt ∧ (A.nb (ix3 b a n)).toInt < 512) :
    val_main_v38 (F := Ideal) A.x A.r A.f A.g A.msk A.nb A.Win A.W1 A.b1 A.W2 A.b2 A.Wf A.bf A.Wd A.bd A.Wa = out A :=
  out_eq A (filt_cut A) (take_row A hr)

end CFConv.Ref

end
-- ==== Proof.PreRange.lean ====
/-
  The neighbour indices' range, read out of the precondition.

  The precondition ends with two conjuncts over the index array: every entry is ≥ 0 and every entry is < 512, each a
  comparison of the whole array against a constant, reduced by "and" to one bit.  The whole predicate being 1, both
  reductions are 1, so both comparisons hold at every entry; read as signed words, each index lies in [0, 512).
-/
import proofs.«407454_j2774548873990_1_alg».proof.Pre_finite_inputs
import proofs.«407454_j2774548873990_1_alg».proof.Proof.LibIndexRange
import Idealize.ShloMosaic.Lib.ReduceAll
import Idealize.ShloMosaic.Lib.ValueIdx

noncomputable section

namespace CFConv.Pre

open Idealize.ShloMosaic Cert.Pre_finite_inputs

variable [hP : Cert.Pre_finite_inputs.Facts]

instance : Subsingleton S_.Idx := ⟨fun a b => funext fun d => d.elim0⟩

/-- The last part of the predicate: its result is the conjunction of everything before with "all indices ≥ 0" and
    "all indices < 512". -/
theorem part4_range (a5 : IVec S8x512x64 32) (a15 : FVec Ideal S128x256 .f32) (v63 v67 : IVec S_ 1)
    (h : fn_part4 (F := Ideal) a5 a15 v63 v67 ValueIdx.ix0 = 1#1) (i : S8x512x64.Idx) :
    0 ≤ (a5 i).toInt ∧ (a5 i).toInt < 512 := by
  unfold fn_part4 at h
  dsimp only at h
  obtain ⟨h77, h80⟩ := IntOp.andi_eq_one.1 h
  obtain ⟨_, h76⟩ := IntOp.andi_eq_one.1 h77
  have g0 := Host.reduce_andi_all _ _ _ _ _ h76 i
  have g1 := Host.reduce_andi_all _ _ _ _ _ h80 i
  exact IndexRange.toInt_mem_of_cmpi 512 (by decide) g0 g1

/-- Under the precondition every neighbour index, read signed, lies in [0, 512). -/
theorem range_of_pre (a0 : FVec Ideal S8x512x256 .f32) (a1 : FVec Ideal S8x512x64 .f32) (a2 : FVec Ideal S8x512x64x128 .f32)
    (a3 : FVec Ideal S8x512x128 .f32) (a4 : FVec Ideal S8x512x64 .f32) (a5 : IVec S8x512x64 32) (a6 : FVec Ideal S256x256 .f32)
    (a7 : FVec Ideal S128x256 .f32) (a8 : FVec Ideal S256 .f32) (a9 : FVec Ideal S256x256 .f32) (a10 : FVec Ideal S256 .f32)
    (a11 : FVec Ideal S256x256 .f32) (a12 : FVec Ideal S256 .f32) (a13 : FVec Ideal S256x256 .f32) (a14 : FVec Ideal S256 .f32)
    (a15 : FVec Ideal S128x256 .f32)
    (h : fn (F := Ideal) a0 a1 a2 a3 a4 a5 a6 a7 a8 a9 a10 a11 a12 a13 a14 a15 = fun _ => 1#1) (i : S8x512x64.Idx) :
    0 ≤ (a5 i).toInt ∧ (a5 i).toInt < 512 := by
  have e := congrFun h ValueIdx.ix0
  unfold fn fn_part1 fn_part2 fn_part3 at e
  dsimp only at e
  exact part4_range _ _ _ _ e i

end CFConv.Pre

end
-- ==== Proof.lean ====
/-
  The kernel (a fused continuous-filter convolution with an angular term: a filter network on the distance expansion,
  a hard cutoff, the neighbours' projected features gathered by a one-hot matrix product, a masked sum over the
  neighbour slots, two output layers, an angular layer, a shifted softplus) against its jnp reference, over the extended
  reals, under the precondition that the float inputs are finite and every neighbour index lies in [0, 512).

  Both programs compute ONE function of the sixteen arguments (Proof/Spec.lean).  The kernel side: each grid point
  stores the specification's result on its 64 atoms, and the 64 blocks tile the result (Proof/KerBlocks.lean over
  Proof/KerFilter.lean, Proof/KerGather.lean, Proof/KerOut.lean).  The reference side: its operations read index by
  index (Proof/RefFilter.lean, Proof/RefGather.lean, Proof/RefTail.lean); the one place the two differ is the gather —
  the reference's take_along_axis returns the row an in-range index names, the kernel's one-hot product sums
  [index = k] · row k over all rows — and for an index in [0, 512) these agree, 0 · x being 0 for every extended real x.
  The index range is read out of the precondition (Proof/PreRange.lean).  The frames are the generated ones; the ideal
  pass rewrote nothing, so there is nothing to preserve.
-/
import proofs.«407454_j2774548873990_1_alg».proof.Defs
import proofs.«407454_j2774548873990_1_alg».proof.Proof.Gen.Kernel
import proofs.«407454_j2774548873990_1_alg».proof.Proof.Gen.Kernel.Skeleton
import proofs.«407454_j2774548873990_1_alg».proof.Proof.Gen.Kernel.Launch
import proofs.«407454_j2774548873990_1_alg».proof.Proof.Gen.Kernel.Points
import proofs.«407454_j2774548873990_1_alg».proof.Proof.Gen.Kernel.Frame
import proofs.«407454_j2774548873990_1_alg».proof.Proof.Gen.KernelIdeal
import proofs.«407454_j2774548873990_1_alg».proof.Proof.Gen.KernelIdeal.Skeleton
import proofs.«407454_j2774548873990_1_alg».proof.Proof.Gen.KernelIdeal.Launch
import proofs.«407454_j2774548873990_1_alg».proof.Proof.Gen.KernelIdeal.Points
import proofs.«407454_j2774548873990_1_alg».proof.Proof.Gen.KernelIdeal.Frame
import proofs.«407454_j2774548873990_1_alg».proof.Proof.Gen.ReferenceIdeal
import proofs.«407454_j2774548873990_1_alg».proof.Proof.Gen.Pre_finite_inputs
import proofs.«407454_j2774548873990_1_alg».proof.Proof.Gen.KernelIdeal.Value
import proofs.«407454_j2774548873990_1_alg».proof.Proof.RefRun
import proofs.«407454_j2774548873990_1_alg».proof.Proof.RefRead
import proofs.«407454_j2774548873990_1_alg».proof.Proof.KerBlocks
import proofs.«407454_j2774548873990_1_alg».proof.Proof.RefBridge
import proofs.«407454_j2774548873990_1_alg».proof.Proof.PreRange
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the specification's result of the kernel's arguments: the kernel's by its blocks, the
    reference's — run from a memory that agrees on the arguments — operation by operation, the indices in range by the
    precondition. -/
theorem algebraic : Cert.algebraic_KernelIdeal_ReferenceIdeal := by
  intro m ρ m' ρ' hpre hagree
  refine ⟨fun c => CFConv.out (CFConv.Ker.args m c), CFConv.Ker.run m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v38_eq]
  obtain ⟨g0, g1, g2, g3, g4, g5, g6, g7, g8, g9, g10, g11, g12, g13, g14, g15⟩ := hagree c
  rw [g0, g1, g2, g3, g4, g5, g6, g7, g8, g9, g10, g11, g12, g13, g14, g15]
  exact CFConv.Ref.ref_eq (CFConv.Ker.args m c) fun b a n =>
    CFConv.Pre.range_of_pre _ _ _ _ _ _ _ _ _ _ _ _ _ _ _ _ (hpre c) (ix3 b a n)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
